-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x4096x64 : Shape := ⟨4, ![2, 8, 4096, 64]⟩
abbrev S_ : Shape := ⟨0, ![]⟩

class Facts : Prop where
  bcast_S_S2x8x4096x64 : S_.BroadcastsInDim S2x8x4096x64 (![] : Fin 0 → Fin S2x8x4096x64.rank)
  reducesTo_S2x8x4096x64_S_d0_1_2_3 : S2x8x4096x64.ReducesTo [0, 1, 2, 3] S_
  h_S_ : 0 < S_.numel

variable [Facts]

def fn {F : FTy → Type} [FloatOps F] (main_arg0 : FVec F S2x8x4096x64 .f32) (main_arg1 : FVec F S2x8x4096x64 .f32) (main_arg2 : FVec F S2x8x4096x64 .f32) : IVec S_ 1 :=
  let main_v0 : FVec F S2x8x4096x64 .f32 := Host.absf main_arg0
  let main_cst : FVec F S_ .f32 := constant S_ .f32 0x7F800000#32
  let main_v1 : FVec F S2x8x4096x64 .f32 := broadcastInDim S2x8x4096x64 ![] bcast_S_S2x8x4096x64 main_cst
  let main_v2 : IVec S2x8x4096x64 1 := cmpf .olt main_v0 main_v1
  let main_c : IVec S_ 1 := constantI S_ 1 1#1
  let main_v3 : IVec S_ 1 := (fun x v => Host.reduce IntOp.andi x v reducesTo_S2x8x4096x64_S_d0_1_2_3 h_S_) main_v2 main_c
  let main_v4 : FVec F S2x8x4096x64 .f32 := Host.absf main_arg1
  let main_cst_0 : FVec F S_ .f32 := constant S_ .f32 0x7F800000#32
  let main_v5 : FVec F S2x8x4096x64 .f32 := broadcastInDim S2x8x4096x64 ![] bcast_S_S2x8x4096x64 main_cst_0
  let main_v6 : IVec S2x8x4096x64 1 := cmpf .olt main_v4 main_v5
  let main_c_1 : IVec S_ 1 := constantI S_ 1 1#1
  let main_v7 : IVec S_ 1 := (fun x v => Host.reduce IntOp.andi x v reducesTo_S2x8x4096x64_S_d0_1_2_3 h_S_) main_v6 main_c_1
  let main_v8 : IVec S_ 1 := andi main_v3 main_v7
  let main_v9 : FVec F S2x8x4096x64 .f32 := Host.absf main_arg2
  let main_cst_2 : FVec F S_ .f32 := constant S_ .f32 0x7F800000#32
  let main_v10 : FVec F S2x8x4096x64 .f32 := broadcastInDim S2x8x4096x64 ![] bcast_S_S2x8x4096x64 main_cst_2
  let main_v11 : IVec S2x8x4096x64 1 := cmpf .olt main_v9 main_v10
  let main_c_3 : IVec S_ 1 := constantI S_ 1 1#1
  let main_v12 : IVec S_ 1 := (fun x v => Host.reduce IntOp.andi x v reducesTo_S2x8x4096x64_S_d0_1_2_3 h_S_) main_v11 main_c_3
  let main_v13 : IVec S_ 1 := andi main_v8 main_v12
  main_v13
-- ==== Kernel.lean ====
abbrev S2x8x4096x64 : Shape := ⟨4, ![2, 8, 4096, 64]⟩
abbrev S16x4096x64 : Shape := ⟨3, ![16, 4096, 64]⟩
abbrev S1x2048x64 : Shape := ⟨3, ![1, 2048, 64]⟩
abbrev S1x4096x64 : Shape := ⟨3, ![1, 4096, 64]⟩
abbrev S2048x1 : Shape := ⟨2, ![2048, 1]⟩
abbrev S2048x64 : Shape := ⟨2, ![2048, 64]⟩
abbrev S1x1024x64 : Shape := ⟨3, ![1, 1024, 64]⟩
abbrev S1024x64 : Shape := ⟨2, ![1024, 64]⟩
abbrev S2048x1024 : Shape := ⟨2, ![2048, 1024]⟩
abbrev S2048 : Shape := ⟨1, ![2048]⟩

abbrev nBuf : Space → Nat
  | .hbm => 8
  | .vmem => 12
  | .smem => 0
  | _ => 0

abbrev bufTy : (tb : Table) → Fin (tcTables nBuf tb) → BufTy
  | .hbm, ⟨0, _⟩ => ⟨S2x8x4096x64, .f32⟩
  | .hbm, ⟨1, _⟩ => ⟨S2x8x4096x64, .f32⟩
  | .hbm, ⟨2, _⟩ => ⟨S2x8x4096x64, .f32⟩
  | .hbm, ⟨3, _⟩ => ⟨S16x4096x64, .f32⟩
  | .hbm, ⟨4, _⟩ => ⟨S16x4096x64, .f32⟩
  | .hbm, ⟨5, _⟩ => ⟨S16x4096x64, .f32⟩
  | .hbm, ⟨6, _⟩ => ⟨S16x4096x64, .f32⟩
  | .hbm, ⟨7, _⟩ => ⟨S2x8x4096x64, .f32⟩
  | .local _ .vmem, ⟨0, _⟩ => ⟨S1x2048x64, .f32⟩
  | .local _ .vmem, ⟨1, _⟩ => ⟨S1x2048x64, .f32⟩
  | .local _ .vmem, ⟨2, _⟩ => ⟨S1x4096x64, .f32⟩
  | .local _ .vmem, ⟨3, _⟩ => ⟨S1x4096x64, .f32⟩
  | .local _ .vmem, ⟨4, _⟩ => ⟨S1x4096x64, .f32⟩
  | .local _ .vmem, ⟨5, _⟩ => ⟨S1x4096x64, .f32⟩
  | .local _ .vmem, ⟨6, _⟩ => ⟨S1x2048x64, .f32⟩
  | .local _ .vmem, ⟨7, _⟩ => ⟨S1x2048x64, .f32⟩
  | .local _ .vmem, ⟨8, _⟩ => ⟨S2048x1, .f32⟩
  | .local _ .vmem, ⟨9, _⟩ => ⟨S2048x1, .f32⟩
  | .local _ .vmem, ⟨10, _⟩ => ⟨S2048x64, .f32⟩
  | .local _ .vmem, ⟨11, _⟩ => ⟨S2048x64, .bf16⟩
  | _, _ => ⟨S2x8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 4], ![false, false, false]⟩

def k0_mult1 (i : grid0.Coords) : BitVec 32 :=
  let arg2 : BitVec 32 := BitVec.ofNat 32 (i 2).val
  let c1024_i32 : BitVec 32 := 1024#32
  let v3 : BitVec 32 := Scalar.muli arg2 c1024_i32
  v3
def k0_off1 (i : grid0.Coords) : Fin 3 → Nat :=
  let c0 : Index := 0#32
  let arg2 : BitVec 32 := BitVec.ofNat 32 (i 2).val
  let c1024_i32 : BitVec 32 := 1024#32
  let v3 : BitVec 32 := Scalar.muli arg2 c1024_i32
  let v4 : BitVec 32 := v3
  let v5 : Index := Scalar.indexCast v4
  let c0_1 : Index := 0#32
  ![0, v5.toNat, 0]
def k0_cond2 (i : grid0.Coords) : BitVec 1 :=
  let arg2 : BitVec 32 := BitVec.ofNat 32 (i 2).val
  let c3_i32 : BitVec 32 := 3#32
  let v44 : BitVec 1 := Scalar.cmpi .eq arg2 c3_i32
  let v45 : BitVec 32 := Scalar.extui v44
  let c0_i32_21 : BitVec 32 := 0#32
  let v46 : BitVec 1 := Scalar.cmpi .ne v45 c0_i32_21
  v46

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S2x8x4096x64_S16x4096x64 : S2x8x4096x64.ShapeCasts S16x4096x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  packedbf16_S2048x64_S2048x64_0_0 : (Rect.unit (s := S2048x64) ![0, 0] S2048x64.size inb_S2048x64_S2048x64_0_0).PackedRows (EltTy.packing .bf16)
  h_S1x1024x64 : 0 < S1x1024x64.numel
  shapeCasts_S1x1024x64_S1024x64 : S1x1024x64.ShapeCasts S1024x64
  reduces_S2048x1024_S2048 : S2048x1024.Reduces [1] S2048
  shapeCasts_S2048_S2048x1 : S2048.ShapeCasts S2048x1
  broadcasts_S2048x1_S2048x1024 : S2048x1.Broadcasts S2048x1024
  broadcasts_S2048x1_S2048x64 : S2048x1.Broadcasts S2048x64
  shapeCasts_S2048x64_S1x2048x64 : S2048x64.ShapeCasts S1x2048x64
  shapeCasts_S16x4096x64_S2x8x4096x64 : S16x4096x64.ShapeCasts S2x8x4096x64
  dot_S2048x64_S1024x64_S2048x1024_1_1_0_0_n_n_wf : DotDims.WF S2048x64 S1024x64 S2048x1024 [1] [1] [0] [0] [] []
  dot_S2048x1024_S1024x64_S2048x64_1_0_0_1_n_n_wf : DotDims.WF S2048x1024 S1024x64 S2048x64 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1024x64.size a ≤ S1x4096x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S16x4096x64.size a
  hwx0_0 : ∀ i : grid0.Coords, EltTy.bits .f32 = 32 ∨ (Rect.block (s := S16x4096x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S16x4096x64.size a
  hwx0_1 : ∀ i : grid0.Coords, EltTy.bits .f32 = 32 ∨ (Rect.block (s := S16x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S16x4096x64.size a
  hwx0_2 : ∀ i : grid0.Coords, EltTy.bits .f32 = 32 ∨ (Rect.block (s := S16x4096x64) S1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S16x4096x64.size a
  hwx0_3 : ∀ i : grid0.Coords, EltTy.bits .f32 = 32 ∨ (Rect.block (s := S16x4096x64) S1x2048x64.size (cc0_transform_3 i) (hinb0_3 i)).WholeWords (EltTy.packing .f32)

variable [Facts₀]

def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_v0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x8x4096x64 : Shape := ⟨4, ![2, 8, 4096, 64]⟩
abbrev S_ : Shape := ⟨0, ![]⟩
abbrev S2x8x4096x4096 : Shape := ⟨4, ![2, 8, 4096, 4096]⟩
abbrev S2x8x4096 : Shape := ⟨3, ![2, 8, 4096]⟩
abbrev S2x8x4096x1 : Shape := ⟨4, ![2, 8, 4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S2x8x4096x64, .f32⟩
  | .hbm, ⟨1, _⟩ => ⟨S2x8x4096x64, .f32⟩
  | .hbm, ⟨2, _⟩ => ⟨S2x8x4096x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2x8x4096x4096, .f32⟩
  | .hbm, ⟨8, _⟩ => ⟨S2x8x4096x4096, .f32⟩
  | .hbm, ⟨9, _⟩ => ⟨S2x8x4096x4096, .f32⟩
  | .hbm, ⟨10, _⟩ => ⟨S_, .f32⟩
  | .hbm, ⟨11, _⟩ => ⟨S2x8x4096, .f32⟩
  | .hbm, ⟨12, _⟩ => ⟨S_, .f32⟩
  | .hbm, ⟨13, _⟩ => ⟨S2x8x4096, .f32⟩
  | .hbm, ⟨14, _⟩ => ⟨S2x8x4096, .f32⟩
  | .hbm, ⟨15, _⟩ => ⟨S2x8x4096x1, .f32⟩
  | .hbm, ⟨16, _⟩ => ⟨S2x8x4096x4096, .f32⟩
  | .hbm, ⟨17, _⟩ => ⟨S2x8x4096x4096, .f32⟩
  | .hbm, ⟨18, _⟩ => ⟨S2x8x4096x4096, .f32⟩
  | .hbm, ⟨19, _⟩ => ⟨S_, .f32⟩
  | .hbm, ⟨20, _⟩ => ⟨S2x8x4096, .f32⟩
  | .hbm, ⟨21, _⟩ => ⟨S2x8x4096x1, .f32⟩
  | .hbm, ⟨22, _⟩ => ⟨S2x8x4096x4096, .f32⟩
  | .hbm, ⟨23, _⟩ => ⟨S2x8x4096x4096, .f32⟩
  | .hbm, ⟨24, _⟩ => ⟨S2x8x4096x64, .f32⟩
  | _, _ => ⟨S2x8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S2x8x4096x4096 : S_.BroadcastsInDim S2x8x4096x4096 (![] : Fin 0 → Fin S2x8x4096x4096.rank)
  reducesTo_S2x8x4096x4096_S2x8x4096_d3 : S2x8x4096x4096.ReducesTo [3] S2x8x4096
  h_S_ : 0 < S_.numel
  bcast_S_S2x8x4096 : S_.BroadcastsInDim S2x8x4096 (![] : Fin 0 → Fin S2x8x4096.rank)
  bcast_S2x8x4096_S2x8x4096x1_0_1_2 : S2x8x4096.BroadcastsInDim S2x8x4096x1 (![0, 1, 2] : Fin 3 → Fin S2x8x4096x1.rank)
  bcast_S2x8x4096x1_S2x8x4096x4096_0_1_2_3 : S2x8x4096x1.BroadcastsInDim S2x8x4096x4096 (![0, 1, 2, 3] : Fin 4 → Fin S2x8x4096x4096.rank)
  dot_S2x8x4096x64_S2x8x4096x64_S2x8x4096x4096_3_3_2_2_01_01_wf : DotDims.WF S2x8x4096x64 S2x8x4096x64 S2x8x4096x4096 [3] [3] [2] [2] [0, 1] [0, 1]
  dot_S2x8x4096x4096_S2x8x4096x64_S2x8x4096x64_3_2_2_3_01_01_wf : DotDims.WF S2x8x4096x4096 S2x8x4096x64 S2x8x4096x64 [3] [2] [2] [3] [0, 1] [0, 1]

variable [Facts₀]

def dot_S2x8x4096x64_S2x8x4096x64_S2x8x4096x4096_3_3_2_2_01_01 : DotDims S2x8x4096x64 S2x8x4096x64 S2x8x4096x4096 where
  lhsContracting := [3]
  rhsContracting := [3]
  lhsNonContracting := [2]
  rhsNonContracting := [2]
  lhsBatch := [0, 1]
  rhsBatch := [0, 1]
  wf := dot_S2x8x4096x64_S2x8x4096x64_S2x8x4096x4096_3_3_2_2_01_01_wf
def dot_S2x8x4096x4096_S2x8x4096x64_S2x8x4096x64_3_2_2_3_01_01 : DotDims S2x8x4096x4096 S2x8x4096x64 S2x8x4096x64 where
  lhsContracting := [3]
  rhsContracting := [2]
  lhsNonContracting := [2]
  rhsNonContracting := [3]
  lhsBatch := [0, 1]
  rhsBatch := [0, 1]
  wf := dot_S2x8x4096x4096_S2x8x4096x64_S2x8x4096x64_3_2_2_3_01_01_wf

class Facts : Prop extends Facts₀ where

variable [Facts]
-- ==== Proof.Pieces.lean ====
/-
  What one grid step of the attention kernel leaves in the four buffers it carries from step to step — the running
  maximum `m` (2048 × 1), the running denominator `l` (2048 × 1), the running numerator `acc` (2048 × 64) and the scaled
  query tile `qs` (2048 × 64) — and, at a group's last step, in the output tile, as plain functions of what it found there
  and of the step's 1024 key rows and 1024 value rows. Three kinds of step:

    first of a group   the buffers are seeded (`m := −∞`, `l := 0`, `acc := 0`, `qs := q · 1/8`) and the step is taken from the seeds;
    middle             the step is taken from what the step before left; `qs` is kept;
    last of a group    as a middle step, and the output tile receives `acc / l` of the step's own results.

  Each statement reads the one store that covers a buffer last, and a load that follows a store of the same step reads
  what was stored. Nothing here depends on the float instance.
-/
import proofs.«411975_j12481174962515_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Flash

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 1024 rows of a head's resident 4096-row block that the step at grid point `i` works on: rows
    `1024 · i₂ … 1024 · i₂ + 1023`. -/
def rows (i : grid0.Coords) (x : Vec F S1x4096x64 .f32) : Vec F S1x1024x64 .f32 :=
  View.ld x (Rect.unit (s := S1x4096x64) (k0_off1 i) S1x1024x64.size (k0_off1_inb i))

/-- The running maximum after a step over key rows `K`, from scaled queries `qs` and the old maximum `m`. -/
def newM (K : Vec F S1x1024x64 .f32) (qs : Vec F S2048x64 .bf16) (m : Vec F S2048x1 .f32) : Vec F S2048x1 .f32 :=
  k0_pay2 (k0_pay10 K qs m)

/-- The running denominator after the step. -/
def newL (K : Vec F S1x1024x64 .f32) (qs : Vec F S2048x64 .bf16) (m l : Vec F S2048x1 .f32) : Vec F S2048x1 .f32 :=
  k0_pay14 K qs m l

/-- The running numerator after the step, over value rows `V`. -/
def newAcc (K V : Vec F S1x1024x64 .f32) (qs : Vec F S2048x64 .bf16) (m : Vec F S2048x1 .f32) (acc : Vec F S2048x64 .f32) :
    Vec F S2048x64 .f32 :=
  k0_pay1 (k0_pay8 V) (k0_pay12 K qs m) acc (k0_pay15 K qs m)

/-! ## A middle step -/

theorem mid_m (c : Dev nD) (i : grid0.Coords) (arg3 : Memref sig .tc .vmem S1x2048x64 .f32) (harg3 : arg3.IsWhole) (arg4 : Memref sig .tc .vmem S1x4096x64 .f32) (harg4 : arg4.IsWhole) (arg5 : Memref sig .tc .vmem S1x4096x64 .f32) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (arg10 : Memref sig .tc .vmem S2048x64 .bf16) (harg10 : arg10.IsWhole) (hc0 : ¬cond0_0 i) (hc1 : ¬cond0_1 i) (x0 : Vec F S1x2048x64 .f32) (x1 : Vec F S1x4096x64 .f32) (x2 : Vec F S1x4096x64 .f32) (xs0 : Vec F S2048x1 .f32) (xs1 : Vec F S2048x1 .f32) (xs2 : Vec F S2048x64 .f32) (xs3 : Vec F S2048x64 .bf16) :
    sout0_B_0 c i arg3 harg3 arg4 harg4 arg5 harg5 arg6 harg6 arg7 harg7 arg8 harg8 arg9 harg9 arg10 harg10 hc0 hc1 x0 x1 x2 xs0 xs1 xs2 xs3 = newM (rows i x1) xs3 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 xs0 xs1 xs2 xs3)]
  unfold kernelRun0_B
  dsimp only
  sl_unfold_words
  rw [View.canon_unit_zero hz2]
  simp only [View.readAt_eq_ld, harg4.read_unread, harg7.read_unread, harg10.read_unread, View.ld_unit_zero (S := S2048x1) hz2, View.ld_unit_zero (S := S2048x64) hz2]
  rfl

theorem mid_l (c : Dev nD) (i : grid0.Coords) (arg3 : Memref sig .tc .vmem S1x2048x64 .f32) (harg3 : arg3.IsWhole) (arg4 : Memref sig .tc .vmem S1x4096x64 .f32) (harg4 : arg4.IsWhole) (arg5 : Memref sig .tc .vmem S1x4096x64 .f32) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (arg10 : Memref sig .tc .vmem S2048x64 .bf16) (harg10 : arg10.IsWhole) (hc0 : ¬cond0_0 i) (hc1 : ¬cond0_1 i) (x0 : Vec F S1x2048x64 .f32) (x1 : Vec F S1x4096x64 .f32) (x2 : Vec F S1x4096x64 .f32) (xs0 : Vec F S2048x1 .f32) (xs1 : Vec F S2048x1 .f32) (xs2 : Vec F S2048x64 .f32) (xs3 : Vec F S2048x64 .bf16) :
    sout0_B_1 c i arg3 harg3 arg4 harg4 arg5 harg5 arg6 harg6 arg7 harg7 arg8 harg8 arg9 harg9 arg10 harg10 hc0 hc1 x0 x1 x2 xs0 xs1 xs2 xs3 = newL (rows i x1) xs3 xs0 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 xs0 xs1 xs2 xs3)]
  unfold kernelRun0_B
  dsimp only
  sl_unfold_words
  rw [View.canon_unit_zero hz2]
  simp only [View.readAt_eq_ld, harg4.read_unread, harg7.read_unread, harg8.read_unread, harg10.read_unread, View.ld_unit_zero (S := S2048x1) hz2, View.ld_unit_zero (S := S2048x64) hz2]
  rfl

theorem mid_acc (c : Dev nD) (i : grid0.Coords) (arg3 : Memref sig .tc .vmem S1x2048x64 .f32) (harg3 : arg3.IsWhole) (arg4 : Memref sig .tc .vmem S1x4096x64 .f32) (harg4 : arg4.IsWhole) (arg5 : Memref sig .tc .vmem S1x4096x64 .f32) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (arg10 : Memref sig .tc .vmem S2048x64 .bf16) (harg10 : arg10.IsWhole) (hc0 : ¬cond0_0 i) (hc1 : ¬cond0_1 i) (x0 : Vec F S1x2048x64 .f32) (x1 : Vec F S1x4096x64 .f32) (x2 : Vec F S1x4096x64 .f32) (xs0 : Vec F S2048x1 .f32) (xs1 : Vec F S2048x1 .f32) (xs2 : Vec F S2048x64 .f32) (xs3 : Vec F S2048x64 .bf16) :
    sout0_B_2 c i arg3 harg3 arg4 harg4 arg5 harg5 arg6 harg6 arg7 harg7 arg8 harg8 arg9 harg9 arg10 harg10 hc0 hc1 x0 x1 x2 xs0 xs1 xs2 xs3 = newAcc (rows i x1) (rows i x2) xs3 xs0 xs2 := by
  unfold sout0_B_2
  rw [View.read_writes_eq_canon _ _ _ (scover0_B_2 c i arg3 harg3 arg4 harg4 arg5 harg5 arg6 harg6 arg7 harg7 arg8 harg8 arg9 harg9 arg10 harg10 hc0 hc1 x0 x1 x2 xs0 xs1 xs2 xs3)]
  unfold kernelRun0_B
  dsimp only
  sl_unfold_words
  rw [View.canon_unit_zero hz2]
  simp only [View.readAt_eq_ld, harg4.read_unread, harg5.read_unread, harg7.read_unread, harg9.read_unread, harg10.read_unread, View.ld_unit_zero (S := S2048x1) hz2, View.ld_unit_zero (S := S2048x64) hz2]
  rfl

/-! ## The last step of a group -/

theorem last_m (c : Dev nD) (i : grid0.Coords) (arg3 : Memref sig .tc .vmem S1x2048x64 .f32) (harg3 : arg3.IsWhole) (arg4 : Memref sig .tc .vmem S1x4096x64 .f32) (harg4 : arg4.IsWhole) (arg5 : Memref sig .tc .vmem S1x4096x64 .f32) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (arg10 : Memref sig .tc .vmem S2048x64 .bf16) (harg10 : arg10.IsWhole) (hc0 : ¬cond0_0 i) (hc1 : cond0_1 i) (x0 : Vec F S1x2048x64 .f32) (x1 : Vec F S1x4096x64 .f32) (x2 : Vec F S1x4096x64 .f32) (xs0 : Vec F S2048x1 .f32) (xs1 : Vec F S2048x1 .f32) (xs2 : Vec F S2048x64 .f32) (xs3 : Vec F S2048x64 .bf16) :
    sout0_C_0 c i arg3 harg3 arg4 harg4 arg5 harg5 arg6 harg6 arg7 harg7 arg8 harg8 arg9 harg9 arg10 harg10 hc0 hc1 x0 x1 x2 xs0 xs1 xs2 xs3 = newM (rows i x1) xs3 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz2]
  simp only [View.readAt_eq_ld, harg4.read_unread, harg7.read_unread, harg10.read_unread, View.ld_unit_zero (S := S2048x1) hz2, View.ld_unit_zero (S := S2048x64) hz2]
  rfl

theorem last_l (c : Dev nD) (i : grid0.Coords) (arg3 : Memref sig .tc .vmem S1x2048x64 .f32) (harg3 : arg3.IsWhole) (arg4 : Memref sig .tc .vmem S1x4096x64 .f32) (harg4 : arg4.IsWhole) (arg5 : Memref sig .tc .vmem S1x4096x64 .f32) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (arg10 : Memref sig .tc .vmem S2048x64 .bf16) (harg10 : arg10.IsWhole) (hc0 : ¬cond0_0 i) (hc1 : cond0_1 i) (x0 : Vec F S1x2048x64 .f32) (x1 : Vec F S1x4096x64 .f32) (x2 : Vec F S1x4096x64 .f32) (xs0 : Vec F S2048x1 .f32) (xs1 : Vec F S2048x1 .f32) (xs2 : Vec F S2048x64 .f32) (xs3 : Vec F S2048x64 .bf16) :
    sout0_C_1 c i arg3 harg3 arg4 harg4 arg5 harg5 arg6 harg6 arg7 harg7 arg8 harg8 arg9 harg9 arg10 harg10 hc0 hc1 x0 x1 x2 xs0 xs1 xs2 xs3 = newL (rows i x1) xs3 xs0 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz2]
  simp only [View.readAt_eq_ld, harg4.read_unread, harg7.read_unread, harg8.read_unread, harg10.read_unread, View.ld_unit_zero (S := S2048x1) hz2, View.ld_unit_zero (S := S2048x64) hz2]
  rfl

theorem last_acc (c : Dev nD) (i : grid0.Coords) (arg3 : Memref sig .tc .vmem S1x2048x64 .f32) (harg3 : arg3.IsWhole) (arg4 : Memref sig .tc .vmem S1x4096x64 .f32) (harg4 : arg4.IsWhole) (arg5 : Memref sig .tc .vmem S1x4096x64 .f32) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (arg10 : Memref sig .tc .vmem S2048x64 .bf16) (harg10 : arg10.IsWhole) (hc0 : ¬cond0_0 i) (hc1 : cond0_1 i) (x0 : Vec F S1x2048x64 .f32) (x1 : Vec F S1x4096x64 .f32) (x2 : Vec F S1x4096x64 .f32) (xs0 : Vec F S2048x1 .f32) (xs1 : Vec F S2048x1 .f32) (xs2 : Vec F S2048x64 .f32) (xs3 : Vec F S2048x64 .bf16) :
    sout0_C_2 c i arg3 harg3 arg4 harg4 arg5 harg5 arg6 harg6 arg7 harg7 arg8 harg8 arg9 harg9 arg10 harg10 hc0 hc1 x0 x1 x2 xs0 xs1 xs2 xs3 = newAcc (rows i x1) (rows i x2) xs3 xs0 xs2 := by
  unfold sout0_C_2
  rw [View.read_writes_eq_canon _ _ _ (scover0_C_2 c i arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz2]
  simp only [View.readAt_eq_ld, harg4.read_unread, harg5.read_unread, harg7.read_unread, harg9.read_unread, harg10.read_unread, View.ld_unit_zero (S := S2048x1) hz2, View.ld_unit_zero (S := S2048x64) hz2]
  rfl

/-- The output tile: the step's own numerator over its own denominator. -/
theorem last_out (c : Dev nD) (i : grid0.Coords) (arg3 : Memref sig .tc .vmem S1x2048x64 .f32) (harg3 : arg3.IsWhole) (arg4 : Memref sig .tc .vmem S1x4096x64 .f32) (harg4 : arg4.IsWhole) (arg5 : Memref sig .tc .vmem S1x4096x64 .f32) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (arg10 : Memref sig .tc .vmem S2048x64 .bf16) (harg10 : arg10.IsWhole) (hc0 : ¬cond0_0 i) (hc1 : cond0_1 i) (x0 : Vec F S1x2048x64 .f32) (x1 : Vec F S1x4096x64 .f32) (x2 : Vec F S1x4096x64 .f32) (xs0 : Vec F S2048x1 .f32) (xs1 : Vec F S2048x1 .f32) (xs2 : Vec F S2048x64 .f32) (xs3 : Vec F S2048x64 .bf16) :
    out0_C_3 c i arg3 harg3 arg4 harg4 arg5 harg5 arg6 harg6 arg7 harg7 arg8 harg8 arg9 harg9 arg10 harg10 hc0 hc1 x0 x1 x2 xs0 xs1 xs2 xs3
      = k0_pay3 (newAcc (rows i x1) (rows i x2) xs3 xs0 xs2) (newL (rows i x1) xs3 xs0 xs1) := by
  unfold out0_C_3
  rw [View.read_writes_eq_canon _ _ _ (cover0_C_3 c i arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz3]
  simp only [View.readAt_eq_ld, harg4.read_unread, harg5.read_unread, harg7.read_unread, harg8.read_unread, harg9.read_unread, harg10.read_unread, View.ld_unit_zero (S := S2048x1) hz2, View.ld_unit_zero (S := S2048x64) hz2,
    View.readCov_unit_zero (S := S2048x1) _ hz2, View.readCov_unit_zero (S := S2048x64) _ hz2]
  rfl

/-! ## The first step of a group -/

theorem first_qs (c : Dev nD) (i : grid0.Coords) (arg3 : Memref sig .tc .vmem S1x2048x64 .f32) (harg3 : arg3.IsWhole) (arg4 : Memref sig .tc .vmem S1x4096x64 .f32) (harg4 : arg4.IsWhole) (arg5 : Memref sig .tc .vmem S1x4096x64 .f32) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (arg10 : Memref sig .tc .vmem S2048x64 .bf16) (harg10 : arg10.IsWhole) (hc0 : cond0_0 i) (hc1 : ¬cond0_1 i) (x0 : Vec F S1x2048x64 .f32) (x1 : Vec F S1x4096x64 .f32) (x2 : Vec F S1x4096x64 .f32) :
    sout0_A_3 c i arg3 harg3 arg4 harg4 arg5 harg5 arg6 harg6 arg7 harg7 arg8 harg8 arg9 harg9 arg10 harg10 hc0 hc1 x0 x1 x2 = k0_pay7 x0 := by
  unfold sout0_A_3
  rw [View.read_writes_eq_canon _ _ _ (scover0_A_3 c i arg3 harg3 arg4 harg4 arg5 harg5 arg6 harg6 arg7 harg7 arg8 harg8 arg9 harg9 arg10 harg10 hc0 hc1 x0 x1 x2)]
  unfold kernelRun0_A
  dsimp only
  sl_unfold_words
  rw [View.canon_unit_zero hz2]
  simp only [View.readAt_eq_ld, harg3.read_unread, View.ld_unit_zero (S := S1x2048x64) hz3]

theorem first_m (c : Dev nD) (i : grid0.Coords) (arg3 : Memref sig .tc .vmem S1x2048x64 .f32) (harg3 : arg3.IsWhole) (arg4 : Memref sig .tc .vmem S1x4096x64 .f32) (harg4 : arg4.IsWhole) (arg5 : Memref sig .tc .vmem S1x4096x64 .f32) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (arg10 : Memref sig .tc .vmem S2048x64 .bf16) (harg10 : arg10.IsWhole) (hc0 : cond0_0 i) (hc1 : ¬cond0_1 i) (x0 : Vec F S1x2048x64 .f32) (x1 : Vec F S1x4096x64 .f32) (x2 : Vec F S1x4096x64 .f32) :
    sout0_A_0 c i arg3 harg3 arg4 harg4 arg5 harg5 arg6 harg6 arg7 harg7 arg8 harg8 arg9 harg9 arg10 harg10 hc0 hc1 x0 x1 x2 = newM (rows i x1) (k0_pay7 x0) k0_pay4 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S2048x1) hz2]
  simp only [View.readAt_eq_ld, harg3.read_unread, harg4.read_unread, View.ld_unit_zero (S := S1x2048x64) hz3,
    View.readCov_unit_zero (S := S2048x1) _ hz2, View.readCov_unit_zero (S := S2048x64) _ hz2]
  rfl

theorem first_l (c : Dev nD) (i : grid0.Coords) (arg3 : Memref sig .tc .vmem S1x2048x64 .f32) (harg3 : arg3.IsWhole) (arg4 : Memref sig .tc .vmem S1x4096x64 .f32) (harg4 : arg4.IsWhole) (arg5 : Memref sig .tc .vmem S1x4096x64 .f32) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (arg10 : Memref sig .tc .vmem S2048x64 .bf16) (harg10 : arg10.IsWhole) (hc0 : cond0_0 i) (hc1 : ¬cond0_1 i) (x0 : Vec F S1x2048x64 .f32) (x1 : Vec F S1x4096x64 .f32) (x2 : Vec F S1x4096x64 .f32) :
    sout0_A_1 c i arg3 harg3 arg4 harg4 arg5 harg5 arg6 harg6 arg7 harg7 arg8 harg8 arg9 harg9 arg10 harg10 hc0 hc1 x0 x1 x2 = newL (rows i x1) (k0_pay7 x0) k0_pay4 k0_pay5 := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S2048x1) hz2]
  simp only [View.readAt_eq_ld, harg3.read_unread, harg4.read_unread, View.ld_unit_zero (S := S1x2048x64) hz3,
    View.readCov_unit_zero (S := S2048x1) _ hz2, View.readCov_unit_zero (S := S2048x64) _ hz2]
  rfl

theorem first_acc (c : Dev nD) (i : grid0.Coords) (arg3 : Memref sig .tc .vmem S1x2048x64 .f32) (harg3 : arg3.IsWhole) (arg4 : Memref sig .tc .vmem S1x4096x64 .f32) (harg4 : arg4.IsWhole) (arg5 : Memref sig .tc .vmem S1x4096x64 .f32) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (arg10 : Memref sig .tc .vmem S2048x64 .bf16) (harg10 : arg10.IsWhole) (hc0 : cond0_0 i) (hc1 : ¬cond0_1 i) (x0 : Vec F S1x2048x64 .f32) (x1 : Vec F S1x4096x64 .f32) (x2 : Vec F S1x4096x64 .f32) :
    sout0_A_2 c i arg3 harg3 arg4 harg4 arg5 harg5 arg6 harg6 arg7 harg7 arg8 harg8 arg9 harg9 arg10 harg10 hc0 hc1 x0 x1 x2 = newAcc (rows i x1) (rows i x2) (k0_pay7 x0) k0_pay4 k0_pay6 := by
  unfold sout0_A_2
  rw [View.read_writes_eq_canon _ _ _ (scover0_A_2 c i arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S2048x64) hz2]
  simp only [View.readAt_eq_ld, harg3.read_unread, harg4.read_unread, harg5.read_unread, View.ld_unit_zero (S := S1x2048x64) hz3,
    View.readCov_unit_zero (S := S2048x1) _ hz2, View.readCov_unit_zero (S := S2048x64) _ hz2]
  rfl

end Cert.KernelIdeal.Flash

end
-- ==== Proof.Spec.lean ====
/-
  The mathematics both programs are compared through, stated once, over the extended reals and over no program.

  One attention row: a query row `q : Fin 64 → EReal`, the keys and values of its head `k v : Fin 4096 → Fin 64 → EReal`.

  * `direct` is softmax attention as it is usually written: the scores `(∑ c, q c · k s c) · (1/√64)`, their maximum
    over the 4096 keys, the weights `exp (score − max)`, their sum, and `∑ s, (weight s / sum) · v s c`.
  * `online` is the same row computed key block by key block (four blocks of 1024 keys): the query is scaled by `1/8`
    first; a running maximum `m`, a running denominator `l` and a running numerator `acc` start at `−∞, 0, 0`; a block
    with scores `s` moves them to `m' = max m (max s)`, `l' = exp (m − m') · l + ∑ exp (s − m')`,
    `acc' = exp (m − m') · acc + ∑ exp (s − m') · v`; the row is `acc / l` after the last block.

  On finite inputs the two agree (Proof/OnlineSoftmax.lean): rescaling by `exp (m − m')` turns every weight taken
  against an older maximum into the weight against the newer one, `1/8 = 1/√64` exactly, the factor `1/8` moves across
  the finite sum, and dividing the numerator once by the denominator is dividing each weight by it.
  The constants are kept as the bit patterns the two programs print, so that reading either program at an index lands
  on these definitions without evaluating a literal.
-/
import Idealize.ShloMosaic.PureOps.Ideal
import Idealize.ShloMosaic.PureOps.Ideal.Laws
import Idealize.ShloMosaic.Lib.ValueIdx

noncomputable section

namespace Cert.Attn

open Idealize.ShloMosaic

/-- `−∞`, as a float pattern. -/
abbrev negInf : EReal := Ideal.ofBits .f32 0xFF800000#32
/-- `0`, as a float pattern. -/
abbrev zero : EReal := Ideal.ofBits .f32 0x00000000#32
/-- `1/8`, as a float pattern: the factor the blockwise form scales the query by. -/
abbrev eighth : EReal := Ideal.ofBits .f32 0x3E000000#32

/-! ## Softmax attention, written directly -/

/-- `1 / √64`, computed: the factor the direct form scales the scores by. -/
def scale : EReal := Ideal.div (Ideal.ofBits .f32 0x3F800000#32) (Ideal.sqrt (Ideal.ofBits .f32 0x42800000#32))

/-- The score of key `s`: the inner product of the query row with the key, scaled. -/
def score (q : Fin 64 → EReal) (k : Fin 4096 → Fin 64 → EReal) (s : Fin 4096) : EReal :=
  (∑ c : Fin 64, q c * k s c) * scale

/-- The largest score of the row (a maximum from `−∞`, taken against `−∞` once more). -/
def rowMax (q : Fin 64 → EReal) (k : Fin 4096 → Fin 64 → EReal) : EReal :=
  max negInf ((Finset.univ : Finset (Fin 4096)).fold max negInf (score q k))

/-- The unnormalised weight of key `s`. -/
def weight (q : Fin 64 → EReal) (k : Fin 4096 → Fin 64 → EReal) (s : Fin 4096) : EReal :=
  Ideal.exp (score q k s - rowMax q k)

/-- The normaliser: the weights summed from zero. -/
def denom (q : Fin 64 → EReal) (k : Fin 4096 → Fin 64 → EReal) : EReal :=
  zero + ∑ s : Fin 4096, weight q k s

/-- Softmax attention of one row, column `c`. -/
def direct (q : Fin 64 → EReal) (k v : Fin 4096 → Fin 64 → EReal) (c : Fin 64) : EReal :=
  ∑ s : Fin 4096, Ideal.div (weight q k s) (denom q k) * v s c

/-! ## The same row, key block by key block -/

/-- The query row scaled by `1/8`. -/
def scaled (q : Fin 64 → EReal) (c : Fin 64) : EReal := q c * eighth

/-- The scores of one block of 1024 keys against an already scaled query row. -/
def bscore (qs : Fin 64 → EReal) (K : Fin 1024 → Fin 64 → EReal) (x : Fin 1024) : EReal :=
  ∑ c : Fin 64, qs c * K x c

/-- The running maximum after a block: the old one against the block's largest score. -/
def newMax (qs : Fin 64 → EReal) (K : Fin 1024 → Fin 64 → EReal) (m : EReal) : EReal :=
  max m ((Finset.univ : Finset (Fin 1024)).fold max negInf (bscore qs K))

/-- The running state: maximum, denominator, numerator (one entry per output column). -/
abbrev State : Type := EReal × EReal × (Fin 64 → EReal)

/-- Before the first block. -/
def start : State := (negInf, zero, fun _ => zero)

/-- One block: the maximum moves up, the denominator and the numerator are rescaled to it and take the block's terms. -/
def step (qs : Fin 64 → EReal) (K V : Fin 1024 → Fin 64 → EReal) (st : State) : State :=
  (newMax qs K st.1,
   Ideal.exp (st.1 - newMax qs K st.1) * st.2.1 + ∑ x : Fin 1024, Ideal.exp (bscore qs K x - newMax qs K st.1),
   fun c => Ideal.exp (st.1 - newMax qs K st.1) * st.2.2 c
     + ∑ x : Fin 1024, Ideal.exp (bscore qs K x - newMax qs K st.1) * V x c)

/-- Key `x` of block `j` among all 4096 (block `j` is keys `1024 j … 1024 j + 1023`; the remainder only makes the
    definition total, no block past the fourth is ever taken). -/
def keyIx (j : ℕ) (x : Fin 1024) : Fin 4096 := ⟨(j * 1024 + x.val) % 4096, Nat.mod_lt _ (by norm_num)⟩

/-- Block `j` of a head's keys (or values). -/
def blk (k : Fin 4096 → Fin 64 → EReal) (j : ℕ) : Fin 1024 → Fin 64 → EReal := fun x c => k (keyIx j x) c

/-- The state after the first `j` blocks. -/
def stateAfter (q : Fin 64 → EReal) (k v : Fin 4096 → Fin 64 → EReal) : ℕ → State
  | 0 => start
  | j + 1 => step (scaled q) (blk k j) (blk v j) (stateAfter q k v j)

/-- The row after all four blocks: numerator over denominator. -/
def online (q : Fin 64 → EReal) (k v : Fin 4096 → Fin 64 → EReal) (c : Fin 64) : EReal :=
  Ideal.div ((stateAfter q k v 4).2.2 c) (stateAfter q k v 4).2.1

/-! ## Over whole arrays `[2, 8, 4096, 64]` (batch, head, position, channel) -/

/-- An array of the three arguments' shape. -/
abbrev Arr : Type := (⟨4, ![2, 8, 4096, 64]⟩ : Shape).Idx → EReal

/-- Row `t` of head `(b, h)`. -/
def rowOf (x : Arr) (b : Fin 2) (h : Fin 8) (t : Fin 4096) : Fin 64 → EReal := fun c => x (ValueIdx.ix4 b h t c)

/-- All rows of head `(b, h)`. -/
def headOf (x : Arr) (b : Fin 2) (h : Fin 8) : Fin 4096 → Fin 64 → EReal := fun s c => x (ValueIdx.ix4 b h s c)

/-- Attention of the whole arrays, directly. -/
def G (q k v : Arr) : Arr := fun i =>
  direct (rowOf q (i 0) (i 1) (i 2)) (headOf k (i 0) (i 1)) (headOf v (i 0) (i 1)) (i 3)

/-- Attention of the whole arrays, block by block. -/
def Gonline (q k v : Arr) : Arr := fun i =>
  online (rowOf q (i 0) (i 1) (i 2)) (headOf k (i 0) (i 1)) (headOf v (i 0) (i 1)) (i 3)

/-- Every entry is a real number. -/
def AllReal (x : Arr) : Prop := ∀ i, ∃ r : ℝ, x i = (r : EReal)

end Cert.Attn

end
-- ==== Proof.Payload.lean ====
/-
  One grid step of the attention kernel, read row by row over the extended reals.

  For query row `r` of the tile the step's three updates are exactly one `Cert.Attn.step` of that row's state
  `(m r, l r, acc r ·)` against the step's 1024 key rows and value rows:
  the scores are the matrix product's entries `∑ c, qs r c · K x c` (a product into a zero accumulator is the plain sum),
  the block's largest score is the lane maximum from `−∞`, the new maximum is the old one against it, the weights are
  `exp (score − new maximum)`, their lane sum joins the rescaled denominator and their product with the value rows the
  rescaled numerator. A change of float format is the identity here, and the casts between `[1, n, 64]`, `[n, 64]`,
  `[2048]`, `[2048, 1]` and the broadcasts of a column only move indices.
-/
import proofs.«411975_j12481174962515_3_alg».proof.Proof.Pieces
import proofs.«411975_j12481174962515_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Flash

open Cert.KernelIdeal Cert.KernelIdeal.Gen Idealize.ShloMosaic.ValueIdx

/-! ## Index moves the library has no name for -/

section Layout
variable {α : Type}

/-- A vector `[a]` cast to a column `[a, 1]` reads, at `(r, ·)`, the vector at `r`. -/
theorem cast_col {a : ℕ} (x : (⟨1, ![a]⟩ : Shape).Idx → α) (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_one, Shape.rowMajor_val_two]
    show r.val = r.val * 1 + u.val
    rw [hu, Nat.mul_one, Nat.add_zero])

/-- A column `[a, 1]` broadcast to `[a, b]` reads, at `(r, c)`, the column at `r`. -/
theorem bcast_col {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ =>
    show 0 = if (1 : ℕ) = 1 then 0 else c.val
    rw [if_pos rfl]

end Layout

/-! ## The two matrix products as sums -/

theorem qk_lhs_0 (j : S2048x1024.Idx) (q : dot_S2048x64_S1024x64_S2048x1024_1_1_0_0_n_n.contr.Idx) :
    (dot_S2048x64_S1024x64_S2048x1024_1_1_0_0_n_n.lhsIdx j q 0).val = (j 0).val := by
  unfold DotDims.lhsIdx
  rw [dif_neg (show ¬(0 : Fin S2048x64.rank) ∈ dot_S2048x64_S1024x64_S2048x1024_1_1_0_0_n_n.lhsBatch by decide), dif_pos (show (0 : Fin S2048x64.rank) ∈ dot_S2048x64_S1024x64_S2048x1024_1_1_0_0_n_n.lhsNonContracting by decide)]
  rfl
theorem qk_lhs_1 (j : S2048x1024.Idx) (q : dot_S2048x64_S1024x64_S2048x1024_1_1_0_0_n_n.contr.Idx) :
    (dot_S2048x64_S1024x64_S2048x1024_1_1_0_0_n_n.lhsIdx j q 1).val = (q ⟨0, by decide⟩).val :=
  dot_S2048x64_S1024x64_S2048x1024_1_1_0_0_n_n.lhsIdx_val_of_single rfl j q
theorem qk_rhs_0 (j : S2048x1024.Idx) (q : dot_S2048x64_S1024x64_S2048x1024_1_1_0_0_n_n.contr.Idx) :
    (dot_S2048x64_S1024x64_S2048x1024_1_1_0_0_n_n.rhsIdx j q 0).val = (j 1).val := by
  unfold DotDims.rhsIdx
  rw [dif_neg (show ¬(0 : Fin S1024x64.rank) ∈ dot_S2048x64_S1024x64_S2048x1024_1_1_0_0_n_n.rhsBatch by decide), dif_pos (show (0 : Fin S1024x64.rank) ∈ dot_S2048x64_S1024x64_S2048x1024_1_1_0_0_n_n.rhsNonContracting by decide)]
  rfl
theorem qk_rhs_1 (j : S2048x1024.Idx) (q : dot_S2048x64_S1024x64_S2048x1024_1_1_0_0_n_n.contr.Idx) :
    (dot_S2048x64_S1024x64_S2048x1024_1_1_0_0_n_n.rhsIdx j q 1).val = (q ⟨0, by decide⟩).val :=
  dot_S2048x64_S1024x64_S2048x1024_1_1_0_0_n_n.rhsIdx_val_of_single rfl j q

/-- Queries against keys, both contracted on their channel axis: entry `(r, x)` is `∑ c, A r c · B x c`. -/
theorem qk_apply (A : FVec Ideal S2048x64 .bf16) (B : FVec Ideal S1024x64 .bf16) (r : Fin 2048) (x : Fin 1024) :
    FloatOps.matmul dot_S2048x64_S1024x64_S2048x1024_1_1_0_0_n_n none A B (constant S2048x1024 .f32 0x00000000#32) (ix2 r x)
      = ∑ c : Fin 64, A (ix2 r c) * B (ix2 x c) := by
  rw [Ideal.matmul_constant_zero_apply, ← Equiv.sum_comp (contrEquiv1 dot_S2048x64_S1024x64_S2048x1024_1_1_0_0_n_n 64 rfl rfl).symm]
  refine Finset.sum_congr rfl fun k _ => ?_
  have hk := contrEquiv1_symm_val dot_S2048x64_S1024x64_S2048x1024_1_1_0_0_n_n 64 rfl rfl k
  have el : dot_S2048x64_S1024x64_S2048x1024_1_1_0_0_n_n.lhsIdx (ix2 r x) ((contrEquiv1 dot_S2048x64_S1024x64_S2048x1024_1_1_0_0_n_n 64 rfl rfl).symm k) = ix2 r k := funext fun a => Fin.ext (by
    match a with
    | ⟨0, _⟩ => exact qk_lhs_0 _ _
    | ⟨1, _⟩ => exact (qk_lhs_1 _ _).trans hk)
  have er : dot_S2048x64_S1024x64_S2048x1024_1_1_0_0_n_n.rhsIdx (ix2 r x) ((contrEquiv1 dot_S2048x64_S1024x64_S2048x1024_1_1_0_0_n_n 64 rfl rfl).symm k) = ix2 x k := funext fun a => Fin.ext (by
    match a with
    | ⟨0, _⟩ => exact qk_rhs_0 _ _
    | ⟨1, _⟩ => exact (qk_rhs_1 _ _).trans hk)
  rw [el, er]

theorem pv_lhs_0 (j : S2048x64.Idx) (q : dot_S2048x1024_S1024x64_S2048x64_1_0_0_1_n_n.contr.Idx) :
    (dot_S2048x1024_S1024x64_S2048x64_1_0_0_1_n_n.lhsIdx j q 0).val = (j 0).val := by
  unfold DotDims.lhsIdx
  rw [dif_neg (show ¬(0 : Fin S2048x1024.rank) ∈ dot_S2048x1024_S1024x64_S2048x64_1_0_0_1_n_n.lhsBatch by decide), dif_pos (show (0 : Fin S2048x1024.rank) ∈ dot_S2048x1024_S1024x64_S2048x64_1_0_0_1_n_n.lhsNonContracting by decide)]
  rfl
theorem pv_lhs_1 (j : S2048x64.Idx) (q : dot_S2048x1024_S1024x64_S2048x64_1_0_0_1_n_n.contr.Idx) :
    (dot_S2048x1024_S1024x64_S2048x64_1_0_0_1_n_n.lhsIdx j q 1).val = (q ⟨0, by decide⟩).val :=
  dot_S2048x1024_S1024x64_S2048x64_1_0_0_1_n_n.lhsIdx_val_of_single rfl j q
theorem pv_rhs_0 (j : S2048x64.Idx) (q : dot_S2048x1024_S1024x64_S2048x64_1_0_0_1_n_n.contr.Idx) :
    (dot_S2048x1024_S1024x64_S2048x64_1_0_0_1_n_n.rhsIdx j q 0).val = (q ⟨0, by decide⟩).val :=
  dot_S2048x1024_S1024x64_S2048x64_1_0_0_1_n_n.rhsIdx_val_of_single rfl j q
theorem pv_rhs_1 (j : S2048x64.Idx) (q : dot_S2048x1024_S1024x64_S2048x64_1_0_0_1_n_n.contr.Idx) :
    (dot_S2048x1024_S1024x64_S2048x64_1_0_0_1_n_n.rhsIdx j q 1).val = (j 1).val := by
  unfold DotDims.rhsIdx
  rw [dif_neg (show ¬(1 : Fin S1024x64.rank) ∈ dot_S2048x1024_S1024x64_S2048x64_1_0_0_1_n_n.rhsBatch by decide), dif_pos (show (1 : Fin S1024x64.rank) ∈ dot_S2048x1024_S1024x64_S2048x64_1_0_0_1_n_n.rhsNonContracting by decide)]
  rfl

/-- Weights against values, contracted on the key axis: entry `(r, c)` is `∑ x, P r x · B x c`. -/
theorem pv_apply (P : FVec Ideal S2048x1024 .bf16) (B : FVec Ideal S1024x64 .bf16) (r : Fin 2048) (c : Fin 64) :
    FloatOps.matmul dot_S2048x1024_S1024x64_S2048x64_1_0_0_1_n_n none P B (constant S2048x64 .f32 0x00000000#32) (ix2 r c)
      = ∑ x : Fin 1024, P (ix2 r x) * B (ix2 x c) := by
  rw [Ideal.matmul_constant_zero_apply, ← Equiv.sum_comp (contrEquiv1 dot_S2048x1024_S1024x64_S2048x64_1_0_0_1_n_n 1024 rfl rfl).symm]
  refine Finset.sum_congr rfl fun k _ => ?_
  have hk := contrEquiv1_symm_val dot_S2048x1024_S1024x64_S2048x64_1_0_0_1_n_n 1024 rfl rfl k
  have el : dot_S2048x1024_S1024x64_S2048x64_1_0_0_1_n_n.lhsIdx (ix2 r c) ((contrEquiv1 dot_S2048x1024_S1024x64_S2048x64_1_0_0_1_n_n 1024 rfl rfl).symm k) = ix2 r k := funext fun a => Fin.ext (by
    match a with
    | ⟨0, _⟩ => exact pv_lhs_0 _ _
    | ⟨1, _⟩ => exact (pv_lhs_1 _ _).trans hk)
  have er : dot_S2048x1024_S1024x64_S2048x64_1_0_0_1_n_n.rhsIdx (ix2 r c) ((contrEquiv1 dot_S2048x1024_S1024x64_S2048x64_1_0_0_1_n_n 1024 rfl rfl).symm k) = ix2 k c := funext fun a => Fin.ext (by
    match a with
    | ⟨0, _⟩ => exact (pv_rhs_0 _ _).trans hk
    | ⟨1, _⟩ => exact pv_rhs_1 _ _)
  rw [el, er]

/-- The source index of a lane reduction of a `[2048, 1024]` array: row `r`, lane `x`. -/
theorem lift_row (r : Fin 2048) (x : Fin (S2048x1024.size 1)) :
    reduces_S2048x1024_S2048.lift (ix1 r) x = ix2 r (⟨x.val, x.isLt⟩ : Fin 1024) := funext fun a => Fin.ext (by
  show reduces_S2048x1024_S2048.liftVal (ix1 r) x.val a = _
  unfold Shape.Reduces.liftVal
  match a with
  | ⟨0, _⟩ => rfl
  | ⟨1, _⟩ => rfl)

/-- The lane maximum from `−∞` of row `r`. -/
theorem rowmax_apply (X : FVec Ideal S2048x1024 .f32) (r : Fin 2048) :
    multiReduction .maximumf [1] S2048 X 0xFF800000#32 reduces_S2048x1024_S2048 (.inl rfl) rfl (ix1 r)
      = (Finset.univ : Finset (Fin 1024)).fold max Attn.negInf (fun x => X (ix2 r x)) := by
  refine (Ideal.multiReduction_maximumf_single X 0xFF800000#32 reduces_S2048x1024_S2048 (.inl rfl) rfl (ix1 r)).trans ?_
  show (Finset.univ : Finset (Fin 1024)).fold max (Ideal.ofBits .f32 0xFF800000#32) (X ∘ reduces_S2048x1024_S2048.lift (ix1 r)) = _
  congr 1
  funext x
  exact congrArg X (lift_row r x)

/-- The lane sum of row `r`. -/
theorem rowsum_apply (X : FVec Ideal S2048x1024 .f32) (r : Fin 2048) :
    multiReduction .add [1] S2048 X 0x00000000#32 reduces_S2048x1024_S2048 (.inl rfl) rfl (ix1 r)
      = ∑ x : Fin 1024, X (ix2 r x) := by
  refine (Ideal.multiReduction_add_single X 0x00000000#32 reduces_S2048x1024_S2048 (.inl rfl) rfl (ix1 r)).trans ?_
  show ∑ k : Fin 1024, X (reduces_S2048x1024_S2048.lift (ix1 r) k) = _
  exact Finset.sum_congr rfl fun x _ => congrArg X (lift_row r x)

/-! ## A tile's row, a block's rows -/

/-- Row `r` of a 2048 × 64 tile of scaled queries. -/
def tileRow (A : Vec Ideal S2048x64 .bf16) (r : Fin 2048) : Fin 64 → EReal := fun c => A (ix2 r c)

/-- The 1024 × 64 matrix under a `[1, 1024, 64]` block. -/
def blockMat (B : Vec Ideal S1x1024x64 .f32) : Fin 1024 → Fin 64 → EReal := fun x c => B (ix3 (0 : Fin 1) x c)

/-- The scores of the step: row `r` of the scaled queries against key row `x`. -/
theorem scores_apply (K : Vec Ideal S1x1024x64 .f32) (qs : Vec Ideal S2048x64 .bf16) (r : Fin 2048) (x : Fin 1024) :
    k0_pay9 K qs (ix2 r x) = Attn.bscore (tileRow qs r) (blockMat K) x := by
  unfold k0_pay9
  simp only [matmul]
  rw [qk_apply]
  unfold Attn.bscore tileRow blockMat
  refine Finset.sum_congr rfl fun c _ => ?_
  rw [truncf_apply, shapeCast_1ab_ab_apply]

/-- The new running maximum of row `r`. -/
theorem max_apply (K : Vec Ideal S1x1024x64 .f32) (qs : Vec Ideal S2048x64 .bf16) (m : Vec Ideal S2048x1 .f32) (r : Fin 2048) :
    k0_pay10 K qs m (ix2 r (0 : Fin 1)) = Attn.newMax (tileRow qs r) (blockMat K) (m (ix2 r (0 : Fin 1))) := by
  unfold k0_pay10
  rw [maximumf_apply, cast_col, rowmax_apply]
  unfold Attn.newMax
  simp only [scores_apply]

/-- The weights of the step: `exp (score − new maximum)`. -/
theorem weights_apply (K : Vec Ideal S1x1024x64 .f32) (qs : Vec Ideal S2048x64 .bf16) (m : Vec Ideal S2048x1 .f32) (r : Fin 2048) (x : Fin 1024) :
    k0_pay11 K qs m (ix2 r x)
      = Ideal.exp (Attn.bscore (tileRow qs r) (blockMat K) x - Attn.newMax (tileRow qs r) (blockMat K) (m (ix2 r (0 : Fin 1)))) := by
  unfold k0_pay11
  show Ideal.exp (k0_pay9 K qs (ix2 r x) - broadcastTo S2048x1024 (k0_pay10 K qs m) broadcasts_S2048x1_S2048x1024 (ix2 r x)) = _
  rw [bcast_col, max_apply, scores_apply]

/-- The factor the old denominator and numerator are rescaled by: `exp (old maximum − new maximum)`. -/
theorem rescale_apply (K : Vec Ideal S1x1024x64 .f32) (qs : Vec Ideal S2048x64 .bf16) (m : Vec Ideal S2048x1 .f32) (r : Fin 2048) :
    k0_pay13 K qs m (ix2 r (0 : Fin 1))
      = Ideal.exp (m (ix2 r (0 : Fin 1)) - Attn.newMax (tileRow qs r) (blockMat K) (m (ix2 r (0 : Fin 1)))) := by
  unfold k0_pay13
  show Ideal.exp (m (ix2 r (0 : Fin 1)) - k0_pay10 K qs m (ix2 r (0 : Fin 1))) = _
  rw [max_apply]

/-- The new running maximum of row `r`, as the step stores it. -/
theorem newM_apply (K : Vec Ideal S1x1024x64 .f32) (qs : Vec Ideal S2048x64 .bf16) (m : Vec Ideal S2048x1 .f32) (r : Fin 2048) :
    newM K qs m (ix2 r (0 : Fin 1)) = Attn.newMax (tileRow qs r) (blockMat K) (m (ix2 r (0 : Fin 1))) := by
  unfold newM k0_pay2
  rw [shapeCast_self, max_apply]

/-- The new running denominator of row `r`: the old one rescaled, plus the step's weights. -/
theorem newL_apply (K : Vec Ideal S1x1024x64 .f32) (qs : Vec Ideal S2048x64 .bf16) (m l : Vec Ideal S2048x1 .f32) (r : Fin 2048) :
    newL K qs m l (ix2 r (0 : Fin 1))
      = Ideal.exp (m (ix2 r (0 : Fin 1)) - Attn.newMax (tileRow qs r) (blockMat K) (m (ix2 r (0 : Fin 1)))) * l (ix2 r (0 : Fin 1))
        + ∑ x : Fin 1024, Ideal.exp (Attn.bscore (tileRow qs r) (blockMat K) x - Attn.newMax (tileRow qs r) (blockMat K) (m (ix2 r (0 : Fin 1)))) := by
  unfold newL k0_pay14
  rw [shapeCast_self, addf_apply, mulf_apply, cast_col, rowsum_apply, rescale_apply]
  simp only [weights_apply]

/-- The new running numerator of row `r`, column `c`: the old one rescaled, plus the step's weights against the value rows. -/
theorem newAcc_apply (K V : Vec Ideal S1x1024x64 .f32) (qs : Vec Ideal S2048x64 .bf16) (m : Vec Ideal S2048x1 .f32)
    (acc : Vec Ideal S2048x64 .f32) (r : Fin 2048) (c : Fin 64) :
    newAcc K V qs m acc (ix2 r c)
      = Ideal.exp (m (ix2 r (0 : Fin 1)) - Attn.newMax (tileRow qs r) (blockMat K) (m (ix2 r (0 : Fin 1)))) * acc (ix2 r c)
        + ∑ x : Fin 1024, Ideal.exp (Attn.bscore (tileRow qs r) (blockMat K) x - Attn.newMax (tileRow qs r) (blockMat K) (m (ix2 r (0 : Fin 1)))) * blockMat V x c := by
  unfold newAcc k0_pay1
  rw [shapeCast_self, addf_apply, mulf_apply]
  simp only [matmul]
  rw [pv_apply]
  unfold k0_pay15 k0_pay12 k0_pay8
  rw [bcast_col, rescale_apply]
  refine congrArg (_ + ·) (Finset.sum_congr rfl fun x _ => ?_)
  rw [truncf_apply, truncf_apply, weights_apply, shapeCast_1ab_ab_apply]
  rfl

/-- The output tile at the last step of a group: numerator over denominator. -/
theorem out_apply (acc : Vec Ideal S2048x64 .f32) (l : Vec Ideal S2048x1 .f32) (r : Fin 2048) (c : Fin 64) :
    k0_pay3 acc l (ix3 (0 : Fin 1) r c) = Ideal.div (acc (ix2 r c)) (l (ix2 r (0 : Fin 1))) := by
  unfold k0_pay3
  rw [shapeCast_ab_1ab_apply, divf_apply, bcast_col]

/-- The scaled query tile the first step of a group stores: the query tile times `1/8`. -/
theorem scaledq_apply (x0 : Vec Ideal S1x2048x64 .f32) (r : Fin 2048) (c : Fin 64) :
    k0_pay7 x0 (ix2 r c) = x0 (ix3 (0 : Fin 1) r c) * Attn.eighth := by
  unfold k0_pay7
  rw [shapeCast_self, truncf_apply, mulf_apply, shapeCast_1ab_ab_apply, broadcast_apply]
  rfl

/-- The seeds the first step of a group stores. -/
theorem seed_m_apply (r : Fin 2048) : (k0_pay4 (F := Ideal)) (ix2 r (0 : Fin 1)) = Attn.negInf := by
  unfold k0_pay4
  rw [shapeCast_self, broadcast_apply]
  rfl
theorem seed_l_apply (r : Fin 2048) : (k0_pay5 (F := Ideal)) (ix2 r (0 : Fin 1)) = Attn.zero := by
  unfold k0_pay5
  rw [shapeCast_self, broadcast_apply]
  rfl
theorem seed_acc_apply (r : Fin 2048) (c : Fin 64) : (k0_pay6 (F := Ideal)) (ix2 r c) = Attn.zero := by
  unfold k0_pay6
  rw [shapeCast_self, broadcast_apply]
  rfl

/-- ONE GRID STEP IS ONE `Cert.Attn.step` OF EVERY ROW: the three updates read at row `r` are the step of that row's
    state against the step's key rows and value rows. -/
theorem step_apply (K V : Vec Ideal S1x1024x64 .f32) (qs : Vec Ideal S2048x64 .bf16) (m l : Vec Ideal S2048x1 .f32)
    (acc : Vec Ideal S2048x64 .f32) (r : Fin 2048) :
    ((newM K qs m (ix2 r (0 : Fin 1)), newL K qs m l (ix2 r (0 : Fin 1)), fun c => newAcc K V qs m acc (ix2 r c)) : Attn.State)
      = Attn.step (tileRow qs r) (blockMat K) (blockMat V)
          (m (ix2 r (0 : Fin 1)), l (ix2 r (0 : Fin 1)), fun c => acc (ix2 r c)) := by
  unfold Attn.step
  simp only [newM_apply, newL_apply, newAcc_apply]

end Cert.KernelIdeal.Flash

end
-- ==== Proof.Invariant.lean ====
/-
  What the kernel's four carried buffers hold after each grid point, over the extended reals.

  The grid is (16 heads) × (2 query tiles) × (4 key blocks), walked with the key block fastest: point `n` works on merged
  head `n / 8`, query tile `n / 4 % 2` (rows `2048 · tile … + 2047`) and key block `n % 4` (keys `1024 · block … + 1023`).
  After point `n`, for every row `r` of the tile, the carried `(m, l, acc)` at `r` are the blockwise state
  `Cert.Attn.stateAfter` of that query row against the head's keys and values after `n % 4 + 1` blocks, and the carried
  scaled queries are the row times `1/8`: by induction on the point — a group's first point seeds the buffers and takes
  block 0, every later point takes the next block from what the point before left.
  So the tile written back at a group's last point is `Cert.Attn.online` of its rows.
-/
import proofs.«411975_j12481174962515_3_alg».proof.Proof.Payload

set_option maxRecDepth 16384

noncomputable section

open Idealize.ShloMosaic Idealize.ShloMosaic.TcCoe Idealize.SL.Sem
open Idealize.ShloMosaic.Pipeline (Dat)

namespace Cert.KernelIdeal.Flash

open Cert.KernelIdeal Cert.KernelIdeal.Gen Idealize.ShloMosaic.ValueIdx

variable (m : (ℓ : Loc nD τ sig) → Buf (Elt Ideal) ℓ)

/-! ## The grid, decided once -/

theorem hN : cfg0.N = 128 := N_0

/-- The step at point `t` starts at key row `1024 · (t % 4)` of the resident block. -/
theorem off_at : ∀ t : Fin cfg0.N, k0_off1 (grid0.coords t) 0 = 0 ∧ k0_off1 (grid0.coords t) 1 = t.val % 4 * 1024 ∧ k0_off1 (grid0.coords t) 2 = 0 :=
  (by decide +kernel : ∀ t : Fin grid0.N, k0_off1 (grid0.coords t) 0 = 0 ∧ k0_off1 (grid0.coords t) 1 = t.val % 4 * 1024 ∧ k0_off1 (grid0.coords t) 2 = 0)
/-- The query window's block index at point `t`: head `t / 8`, tile `t / 4 % 2`. -/
theorem qidx : ∀ t : Fin cfg0.N, win0_0.index t 0 = t.val / 8 ∧ win0_0.index t 1 = t.val / 4 % 2 ∧ win0_0.index t 2 = 0 :=
  (by decide +kernel : ∀ t : Fin grid0.N, win0_0.index t 0 = t.val / 8 ∧ win0_0.index t 1 = t.val / 4 % 2 ∧ win0_0.index t 2 = 0)
/-- The key window's: head `t / 8`, the whole head. -/
theorem kidx : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)
/-- The value window's: the same. -/
theorem vidx : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)
/-- The output window's: as the query window's. -/
theorem oidx : ∀ t : Fin cfg0.N, win0_3.index t 0 = t.val / 8 ∧ win0_3.index t 1 = t.val / 4 % 2 ∧ win0_3.index t 2 = 0 :=
  (by decide +kernel : ∀ t : Fin grid0.N, win0_3.index t 0 = t.val / 8 ∧ win0_3.index t 1 = t.val / 4 % 2 ∧ win0_3.index t 2 = 0)

/-! ## The arrays the region finds, and the blocks read off them -/

/-- The merged-head query, key and value arrays `[16, 4096, 64]` as the region finds them. -/
abbrev Qa (c : Dev nD) : Vec Ideal S16x4096x64 .f32 := V m c main_v0
abbrev Ka (c : Dev nD) : Vec Ideal S16x4096x64 .f32 := V m c main_v1
abbrev Va (c : Dev nD) : Vec Ideal S16x4096x64 .f32 := V m c main_v2

/-- The three input blocks at point `t`, at their literal shapes. -/
abbrev qblk (c : Dev nD) (t : Fin cfg0.N) : Vec Ideal S1x2048x64 .f32 := iblk m c 0 t
abbrev kblk (c : Dev nD) (t : Fin cfg0.N) : Vec Ideal S1x4096x64 .f32 := iblk m c 1 t
abbrev vblk (c : Dev nD) (t : Fin cfg0.N) : Vec Ideal S1x4096x64 .f32 := iblk m c 2 t

/-- Point `n`'s merged head, and row `r` of its query tile among the head's 4096 rows. -/
def headIx (n : ℕ) : Fin 16 := ⟨n / 8 % 16, Nat.mod_lt _ (by norm_num)⟩
def rowIx (n : ℕ) (r : Fin 2048) : Fin 4096 := ⟨(n / 4 % 2 * 2048 + r.val) % 4096, Nat.mod_lt _ (by norm_num)⟩

/-- Row `tt` of merged head `g` of an array; all rows of merged head `g`. -/
def rowOf3 (X : Vec Ideal S16x4096x64 .f32) (g : Fin 16) (tt : Fin 4096) : Fin 64 → EReal := fun cc => X (ix3 g tt cc)
def headOf3 (X : Vec Ideal S16x4096x64 .f32) (g : Fin 16) : Fin 4096 → Fin 64 → EReal := fun s cc => X (ix3 g s cc)

theorem qblk_apply (c : Dev nD) (t : Fin cfg0.N) (r : Fin 2048) (cc : Fin 64) :
    qblk m c t (ix3 (0 : Fin 1) r cc) = Qa m c (ix3 (headIx t.val) (rowIx t.val r) cc) := by
  have hlt : t.val < 128 := lt_of_lt_of_eq t.isLt hN
  obtain ⟨h0, h1, h2⟩ := qidx t
  show ((cfg0.win 0).blk t).view.read (Elt Ideal) (V m c main_v0) (ix3 (0 : Fin 1) r cc) = _
  rw [View.read_apply]
  show V m c main_v0 _ = V m c main_v0 _
  congr 1
  funext a
  apply Fin.ext
  match a with
  | ⟨0, _⟩ => show win0_0.index t 0 * 1 + 1 * 0 = t.val / 8 % 16; rw [h0]; omega
  | ⟨1, _⟩ => show win0_0.index t 1 * 2048 + 1 * r.val = (t.val / 4 % 2 * 2048 + r.val) % 4096; rw [h1]; have := r.isLt; omega
  | ⟨2, _⟩ => show win0_0.index t 2 * 64 + 1 * cc.val = cc.val; rw [h2]; omega

theorem kblk_apply (c : Dev nD) (t : Fin cfg0.N) (s : Fin 4096) (cc : Fin 64) :
    kblk m c t (ix3 (0 : Fin 1) s cc) = Ka m c (ix3 (headIx t.val) s cc) := by
  have hlt : t.val < 128 := lt_of_lt_of_eq t.isLt hN
  obtain ⟨h0, h1, h2⟩ := kidx t
  show ((cfg0.win 1).blk t).view.read (Elt Ideal) (V m c main_v1) (ix3 (0 : Fin 1) s cc) = _
  rw [View.read_apply]
  show V m c main_v1 _ = V m c main_v1 _
  congr 1
  funext a
  apply Fin.ext
  match a with
  | ⟨0, _⟩ => show win0_1.index t 0 * 1 + 1 * 0 = t.val / 8 % 16; rw [h0]; omega
  | ⟨1, _⟩ => show win0_1.index t 1 * 4096 + 1 * s.val = s.val; rw [h1]; omega
  | ⟨2, _⟩ => show win0_1.index t 2 * 64 + 1 * cc.val = cc.val; rw [h2]; omega

theorem vblk_apply (c : Dev nD) (t : Fin cfg0.N) (s : Fin 4096) (cc : Fin 64) :
    vblk m c t (ix3 (0 : Fin 1) s cc) = Va m c (ix3 (headIx t.val) s cc) := by
  have hlt : t.val < 128 := lt_of_lt_of_eq t.isLt hN
  obtain ⟨h0, h1, h2⟩ := vidx t
  show ((cfg0.win 2).blk t).view.read (Elt Ideal) (V m c main_v2) (ix3 (0 : Fin 1) s cc) = _
  rw [View.read_apply]
  show V m c main_v2 _ = V m c main_v2 _
  congr 1
  funext a
  apply Fin.ext
  match a with
  | ⟨0, _⟩ => show win0_2.index t 0 * 1 + 1 * 0 = t.val / 8 % 16; rw [h0]; omega
  | ⟨1, _⟩ => show win0_2.index t 1 * 4096 + 1 * s.val = s.val; rw [h1]; omega
  | ⟨2, _⟩ => show win0_2.index t 2 * 64 + 1 * cc.val = cc.val; rw [h2]; omega

/-- The step's 1024 rows of a resident block `x` are rows `1024 · (t % 4) + x'` of it: block `t % 4` of the head. -/
theorem rows_apply (t : Fin cfg0.N) (x : Vec Ideal S1x4096x64 .f32) (x' : Fin 1024) (cc : Fin 64) :
    rows (grid0.coords t) x (ix3 (0 : Fin 1) x' cc) = x (ix3 (0 : Fin 1) (Attn.keyIx (t.val % 4) x') cc) := by
  obtain ⟨h0, h1, h2⟩ := off_at t
  unfold rows
  show x _ = x _
  congr 1
  funext a
  apply Fin.ext
  match a with
  | ⟨0, _⟩ => show k0_off1 (grid0.coords t) 0 + 1 * 0 = 0; rw [h0]
  | ⟨1, _⟩ => show k0_off1 (grid0.coords t) 1 + 1 * x'.val = (t.val % 4 * 1024 + x'.val) % 4096; rw [h1]; have := x'.isLt; omega
  | ⟨2, _⟩ => show k0_off1 (grid0.coords t) 2 + 1 * cc.val = cc.val; rw [h2]; omega

/-! ## One point of the grid -/

/-- Row `r`'s state `(m, l, acc)` in what a point leaves. -/
def rowState (S : Vec Ideal S1x2048x64 .f32 × Vec Ideal S2048x1 .f32 × Vec Ideal S2048x1 .f32 × Vec Ideal S2048x64 .f32 × Vec Ideal S2048x64 .bf16) (r : Fin 2048) : Attn.State :=
  (S.2.1 (ix2 r (0 : Fin 1)), S.2.2.1 (ix2 r (0 : Fin 1)), fun cc => S.2.2.2.1 (ix2 r cc))

/-- What the point before `t` left (for a point that is not a group's first). -/
abbrev prev (c : Dev nD) (t : Fin cfg0.N) : Vec Ideal S1x2048x64 .f32 × Vec Ideal S2048x1 .f32 × Vec Ideal S2048x1 .f32 × Vec Ideal S2048x64 .f32 × Vec Ideal S2048x64 .bf16 :=
  outsAt0 m c (t.val - 1) (Nat.lt_of_le_of_lt (Nat.sub_le _ _) t.isLt)

/-- A group's first point: every row takes block 0 from the seeds, with the freshly scaled query tile. -/
theorem first_point (c : Dev nD) (t : Fin cfg0.N) (h0 : t.val % 4 = 0) (r : Fin 2048) :
    rowState (outsAt0 m c t.val t.isLt) r
        = Attn.step (tileRow (k0_pay7 (qblk m c t)) r) (blockMat (rows (grid0.coords t) (kblk m c t)))
            (blockMat (rows (grid0.coords t) (vblk m c t)))
            ((k0_pay4 (F := Ideal)) (ix2 r (0 : Fin 1)), (k0_pay5 (F := Ideal)) (ix2 r (0 : Fin 1)), fun cc => (k0_pay6 (F := Ideal)) (ix2 r cc))
      ∧ (outsAt0 m c t.val t.isLt).2.2.2.2 = k0_pay7 (qblk m c t) := by
  have h1 : ¬t.val % 4 = 3 := by omega
  unfold rowState
  rw [outsAt0_A m c t h0 h1]
  dsimp only
  rw [first_m (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t),
    first_l (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t),
    first_acc (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t),
    first_qs (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)]
  exact ⟨step_apply (rows (grid0.coords t) (kblk m c t)) (rows (grid0.coords t) (vblk m c t)) (k0_pay7 (qblk m c t)) (k0_pay4 (F := Ideal)) (k0_pay5 (F := Ideal)) (k0_pay6 (F := Ideal)) r, rfl⟩

/-- A later point: every row takes the next block from what the point before left; the scaled query tile is kept. -/
theorem later_point (c : Dev nD) (t : Fin cfg0.N) (h0 : ¬t.val % 4 = 0) (r : Fin 2048) :
    rowState (outsAt0 m c t.val t.isLt) r
        = Attn.step (tileRow (prev m c t).2.2.2.2 r) (blockMat (rows (grid0.coords t) (kblk m c t)))
            (blockMat (rows (grid0.coords t) (vblk m c t))) (rowState (prev m c t) r)
      ∧ (outsAt0 m c t.val t.isLt).2.2.2.2 = (prev m c t).2.2.2.2 := by
  unfold rowState
  by_cases h1 : t.val % 4 = 3
  · rw [outsAt0_C m c t h0 h1]
    dsimp only
    rw [last_m (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (prev m c t).2.1 (prev m c t).2.2.1 (prev m c t).2.2.2.1 (prev m c t).2.2.2.2,
      last_l (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (prev m c t).2.1 (prev m c t).2.2.1 (prev m c t).2.2.2.1 (prev m c t).2.2.2.2,
      last_acc (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (prev m c t).2.1 (prev m c t).2.2.1 (prev m c t).2.2.2.1 (prev m c t).2.2.2.2]
    exact ⟨step_apply (rows (grid0.coords t) (kblk m c t)) (rows (grid0.coords t) (vblk m c t)) (prev m c t).2.2.2.2 (prev m c t).2.1 (prev m c t).2.2.1 (prev m c t).2.2.2.1 r, rfl⟩
  · rw [outsAt0_B m c t h0 h1]
    dsimp only
    rw [mid_m (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (prev m c t).2.1 (prev m c t).2.2.1 (prev m c t).2.2.2.1 (prev m c t).2.2.2.2,
      mid_l (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (prev m c t).2.1 (prev m c t).2.2.1 (prev m c t).2.2.2.1 (prev m c t).2.2.2.2,
      mid_acc (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (prev m c t).2.1 (prev m c t).2.2.1 (prev m c t).2.2.2.1 (prev m c t).2.2.2.2]
    exact ⟨step_apply (rows (grid0.coords t) (kblk m c t)) (rows (grid0.coords t) (vblk m c t)) (prev m c t).2.2.2.2 (prev m c t).2.1 (prev m c t).2.2.1 (prev m c t).2.2.2.1 r, rfl⟩

/-- A group's last point also leaves, in the output tile, the new numerator over the new denominator. -/
theorem last_point_out (c : Dev nD) (t : Fin cfg0.N) (h3 : t.val % 4 = 3) (r : Fin 2048) (cc : Fin 64) :
    (outsAt0 m c t.val t.isLt).1 (ix3 (0 : Fin 1) r cc)
      = Ideal.div ((rowState (outsAt0 m c t.val t.isLt) r).2.2 cc) (rowState (outsAt0 m c t.val t.isLt) r).2.1 := by
  have h0 : ¬t.val % 4 = 0 := by omega
  unfold rowState
  rw [outsAt0_C m c t h0 h3]
  dsimp only
  rw [last_out (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h3) (iblk m c 0 t) (iblk m c 1 t) (iblk m c 2 t) (prev m c t).2.1 (prev m c t).2.2.1 (prev m c t).2.2.2.1 (prev m c t).2.2.2.2,
    last_l (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h3) (iblk m c 0 t) (iblk m c 1 t) (iblk m c 2 t) (prev m c t).2.1 (prev m c t).2.2.1 (prev m c t).2.2.2.1 (prev m c t).2.2.2.2,
    last_acc (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h3) (iblk m c 0 t) (iblk m c 1 t) (iblk m c 2 t) (prev m c t).2.1 (prev m c t).2.2.1 (prev m c t).2.2.2.1 (prev m c t).2.2.2.2]
  exact out_apply _ _ r cc

/-! ## Every point of the grid -/

/-- Within a group the head and the tile do not move. -/
theorem head_succ (n : ℕ) (h : ¬(n + 1) % 4 = 0) : headIx (n + 1) = headIx n :=
  Fin.ext (by show (n + 1) / 8 % 16 = n / 8 % 16; omega)
theorem row_succ (n : ℕ) (h : ¬(n + 1) % 4 = 0) (r : Fin 2048) : rowIx (n + 1) r = rowIx n r :=
  Fin.ext (by show ((n + 1) / 4 % 2 * 2048 + r.val) % 4096 = (n / 4 % 2 * 2048 + r.val) % 4096; omega)

/-- The tile a group's first point stores is the tile's query rows times `1/8`. -/
theorem scaled_tile (c : Dev nD) (t : Fin cfg0.N) (r : Fin 2048) :
    tileRow (k0_pay7 (qblk m c t)) r = Attn.scaled (rowOf3 (Qa m c) (headIx t.val) (rowIx t.val r)) := by
  funext cc
  exact (scaledq_apply (qblk m c t) r cc).trans (congrArg (· * Attn.eighth) (qblk_apply m c t r cc))

/-- The step's key rows are block `t % 4` of the head's keys; its value rows likewise. -/
theorem key_rows (c : Dev nD) (t : Fin cfg0.N) :
    blockMat (rows (grid0.coords t) (kblk m c t)) = Attn.blk (headOf3 (Ka m c) (headIx t.val)) (t.val % 4) := by
  funext x cc
  exact (rows_apply t (kblk m c t) x cc).trans (kblk_apply m c t _ cc)
theorem value_rows (c : Dev nD) (t : Fin cfg0.N) :
    blockMat (rows (grid0.coords t) (vblk m c t)) = Attn.blk (headOf3 (Va m c) (headIx t.val)) (t.val % 4) := by
  funext x cc
  exact (rows_apply t (vblk m c t) x cc).trans (vblk_apply m c t _ cc)

/-- The seeds are the blockwise form's start. -/
theorem seeds (r : Fin 2048) :
    (((k0_pay4 (F := Ideal)) (ix2 r (0 : Fin 1)), (k0_pay5 (F := Ideal)) (ix2 r (0 : Fin 1)), fun cc => (k0_pay6 (F := Ideal)) (ix2 r cc)) : Attn.State)
      = Attn.start := by
  unfold Attn.start
  rw [seed_m_apply, seed_l_apply]
  exact congrArg (fun f : Fin 64 → EReal => ((Attn.negInf, Attn.zero, f) : Attn.State)) (funext fun cc => seed_acc_apply r cc)

/-- THE INVARIANT. After point `n`, row `r`'s carried state is the blockwise state of its query row after `n % 4 + 1`
    blocks of its head, and the carried scaled tile is the query rows times `1/8`. -/
theorem inv (c : Dev nD) : ∀ (n : ℕ) (hn : n < cfg0.N) (r : Fin 2048),
    rowState (outsAt0 m c n hn) r
        = Attn.stateAfter (rowOf3 (Qa m c) (headIx n) (rowIx n r)) (headOf3 (Ka m c) (headIx n)) (headOf3 (Va m c) (headIx n)) (n % 4 + 1)
      ∧ tileRow (outsAt0 m c n hn).2.2.2.2 r = Attn.scaled (rowOf3 (Qa m c) (headIx n) (rowIx n r))
  | 0, hn, r => by
    obtain ⟨e1, e2⟩ := first_point m c ⟨0, hn⟩ rfl r
    refine ⟨e1.trans ?_, (congrArg (fun A => tileRow A r) e2).trans (scaled_tile m c ⟨0, hn⟩ r)⟩
    rw [scaled_tile m c ⟨0, hn⟩ r, key_rows m c ⟨0, hn⟩, value_rows m c ⟨0, hn⟩, seeds r]
    rfl
  | n + 1, hn, r => by
    by_cases h0 : (n + 1) % 4 = 0
    · obtain ⟨e1, e2⟩ := first_point m c ⟨n + 1, hn⟩ h0 r
      refine ⟨e1.trans ?_, (congrArg (fun A => tileRow A r) e2).trans (scaled_tile m c ⟨n + 1, hn⟩ r)⟩
      rw [scaled_tile m c ⟨n + 1, hn⟩ r, key_rows m c ⟨n + 1, hn⟩, value_rows m c ⟨n + 1, hn⟩, seeds r]
      dsimp only
      rw [h0]
      rfl
    · obtain ⟨e1, e2⟩ := later_point m c ⟨n + 1, hn⟩ h0 r
      obtain ⟨i1, i2⟩ := inv c n (Nat.lt_of_succ_lt hn) r
      have hm : (n + 1) % 4 = n % 4 + 1 := by omega
      have p2 : tileRow (prev m c ⟨n + 1, hn⟩).2.2.2.2 r = Attn.scaled (rowOf3 (Qa m c) (headIx n) (rowIx n r)) := i2
      have p1 : rowState (prev m c ⟨n + 1, hn⟩) r
          = Attn.stateAfter (rowOf3 (Qa m c) (headIx n) (rowIx n r)) (headOf3 (Ka m c) (headIx n)) (headOf3 (Va m c) (headIx n)) (n % 4 + 1) := i1
      refine ⟨e1.trans ?_, (congrArg (fun A => tileRow A r) e2).trans ?_⟩
      · rw [p2, p1, key_rows m c ⟨n + 1, hn⟩, value_rows m c ⟨n + 1, hn⟩]
        dsimp only
        rw [head_succ n h0, row_succ n h0 r, hm]
        rfl
      · rw [p2, head_succ n h0, row_succ n h0 r]

/-! ## The result over the merged-head arrays -/

/-- Attention of merged-head arrays `[16, 4096, 64]`, block by block: row `tt` of head `g` against that head's keys and values. -/
def result3 (Q K W : Vec Ideal S16x4096x64 .f32) : Vec Ideal S16x4096x64 .f32 := fun i =>
  Attn.online (rowOf3 Q (i 0) (i 1)) (headOf3 K (i 0)) (headOf3 W (i 0)) (i 2)

theorem result3_apply (Q K W : Vec Ideal S16x4096x64 .f32) (g : Fin 16) (tt : Fin 4096) (cc : Fin 64) :
    result3 Q K W (ix3 g tt cc) = Attn.online (rowOf3 Q g tt) (headOf3 K g) (headOf3 W g) cc := rfl

/-- THE TILE A GROUP'S LAST POINT LEAVES: entry `(r, cc)` of the output tile after point `t`, `t % 4 = 3`, is the
    blockwise attention of row `rowIx t r` of head `headIx t`. -/
theorem out_tile (c : Dev nD) (t : Fin cfg0.N) (h3 : t.val % 4 = 3) (r : Fin 2048) (cc : Fin 64) :
    (outsAt0 m c t.val t.isLt).1 (ix3 (0 : Fin 1) r cc)
      = result3 (Qa m c) (Ka m c) (Va m c) (ix3 (headIx t.val) (rowIx t.val r) cc) := by
  rw [last_point_out m c t h3 r cc, (inv m c t.val t.isLt r).1, h3]
  rfl

end Cert.KernelIdeal.Flash

end
-- ==== Proof.OutArray.lean ====
/-
  From the tiles the kernel writes back to the whole output array.

  The output array is [16, 4096, 64] (merged head, row, channel); the kernel's output block is [1, 2048, 64], and at
  grid point `t` it is block (t / 8, t / 4 % 2, 0) of the array: merged head `t / 8`, rows
  `2048 · (t / 4 % 2) … + 2047`, all 64 channels. A block is written back exactly at the last point of each group of
  four, `t % 4 = 3`, and what that point leaves is blockwise attention of the tile's rows. Entry (0, r, cc) of the
  block at point `t` sits at (t / 8, 2048 · (t / 4 % 2) + r, cc) of the array, which is where the tile's row `r` was
  taken from: so each written block is the block of ONE whole-array function, attention of every row of every head.
  Every index (g, tt, cc) of the array lies in the block of the flushing point `8 g + 4 (tt / 2048) + 3`; so after
  the run the array holds that function everywhere.
-/
import proofs.«411975_j12481174962515_3_alg».proof.Proof.Invariant
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Flash

open Cert.KernelIdeal Cert.KernelIdeal.Gen Idealize.ShloMosaic.ValueIdx

variable (m : (ℓ : Loc nD τ sig) → Buf (Elt Ideal) ℓ)

/-- What a flushing point writes back is its block of the whole-array result: entry (0, r, cc) of the tile is the
    result at (t / 8, 2048 · (t / 4 % 2) + r, cc), and that is where the block's entry sits in the array. -/
theorem flushed_eq (c : Dev nD) (t : Fin cfg0.N) (hf : (cfg0.win 3).flush t = true) :
    (dats m 0 c).flushed 3 t = ((cfg0.win 3).blk t).view.read (Elt Ideal) (result3 (Qa m c) (Ka m c) (Va m c)) := by
  have h3 : t.val % 4 = 3 := (flush0_3 t).mp hf
  have hlt : t.val < 128 := lt_of_lt_of_eq t.isLt hN
  obtain ⟨h0, h1, h2⟩ := oidx t
  show (cfg0.win 3).cut (grid0.coords t) ((dats m 0 c).after 3 t) = _
  rw [after0_3]
  refine funext fun (y : S1x2048x64.Idx) => ?_
  obtain ⟨z, r, cc, rfl⟩ : ∃ (z : Fin 1) (r : Fin 2048) (cc : Fin 64), y = ix3 z r cc := ⟨y 0, y 1, y 2, eq_ix3 y⟩
  obtain rfl : z = 0 := Subsingleton.elim _ _
  refine (out_tile m c t h3 r cc).trans ?_
  rw [View.read_apply]
  show result3 (Qa m c) (Ka m c) (Va m c) _ = result3 (Qa m c) (Ka m c) (Va m c) _
  congr 1
  funext a
  apply Fin.ext
  match a with
  | ⟨0, _⟩ => show t.val / 8 % 16 = win0_3.index t 0 * 1 + 1 * 0; rw [h0]; omega
  | ⟨1, _⟩ => show (t.val / 4 % 2 * 2048 + r.val) % 4096 = win0_3.index t 1 * 2048 + 1 * r.val; rw [h1]; have := r.isLt; omega
  | ⟨2, _⟩ => show cc.val = win0_3.index t 2 * 64 + 1 * cc.val; rw [h2]; omega

/-- The flushed blocks tile the array, so after the run it holds the whole-array result. -/
theorem final3 (c : Dev nD) : (dats m 0 c).arrAt 3 cfg0.N = result3 (Qa m c) (Ka m c) (Va m c) :=
  (dats m 0 c).arrAt_eq_of_cover 3 (result3 (Qa m c) (Ka m c) (Va m c)) (flushed_eq m c) fun i => by
    have hi0 : (i 0 : Nat) < 16 := (i 0).isLt
    have hi1 : (i 1 : Nat) < 4096 := (i 1).isLt
    have hi2 : (i 2 : Nat) < 64 := (i 2).isLt
    obtain ⟨n, hn⟩ : ∃ n : ℕ, n = (i 0 : Nat) * 8 + (i 1 : Nat) / 2048 * 4 + 3 := ⟨_, rfl⟩
    have hlt : n < cfg0.N := by rw [hN]; omega
    have h0 : win0_3.index ⟨n, hlt⟩ 0 = n / 8 := (oidx ⟨n, hlt⟩).1
    have h1 : win0_3.index ⟨n, hlt⟩ 1 = n / 4 % 2 := (oidx ⟨n, hlt⟩).2.1
    have h2 : win0_3.index ⟨n, hlt⟩ 2 = 0 := (oidx ⟨n, hlt⟩).2.2
    refine ⟨⟨n, hlt⟩, (flush0_3 ⟨n, hlt⟩).mpr (by show n % 4 = 3; omega), ?_⟩
    show i ∈ ((View.whole main_v3).slice (win0_3.rect ⟨n, hlt⟩)).set
    rw [View.set_slice_whole, Rect.mem_set_unit]
    intro a
    match a with
    | ⟨0, _⟩ =>
      show win0_3.index ⟨n, hlt⟩ 0 * 1 ≤ (i 0 : Nat) ∧ (i 0 : Nat) < win0_3.index ⟨n, hlt⟩ 0 * 1 + 1
      rw [h0]; omega
    | ⟨1, _⟩ =>
      show win0_3.index ⟨n, hlt⟩ 1 * 2048 ≤ (i 1 : Nat) ∧ (i 1 : Nat) < win0_3.index ⟨n, hlt⟩ 1 * 2048 + 2048
      rw [h1]; omega
    | ⟨2, _⟩ =>
      show win0_3.index ⟨n, hlt⟩ 2 * 64 ≤ (i 2 : Nat) ∧ (i 2 : Nat) < win0_3.index ⟨n, hlt⟩ 2 * 64 + 64
      rw [h2]; omega

end Cert.KernelIdeal.Flash

end
-- ==== Proof.HostSide.lean ====
/-
  The host operations around the region of the idealized kernel program, read as values.

  Before the region three reshapes read the arguments `[2, 8, 4096, 64]` as `[16, 4096, 64]`; none of them writes a
  buffer another one reads, so what the region finds in each reshaped buffer is the reshape of the launch contents of
  its argument. After the region one reshape reads the region's output array `[16, 4096, 64]` back as
  `[2, 8, 4096, 64]`: the program's result is that reshape of the array as the region leaves it.
-/
import proofs.«411975_j12481174962515_3_alg».proof.Proof.Gen.KernelIdeal.Frame
import Idealize.ShloMosaic.Lib.StableHlo.Run
import Idealize.ShloMosaic.Lib.Pipeline.Value
import Idealize.ShloMosaic.Lib.Tactic

noncomputable section

namespace Cert.KernelIdeal.Flash

open Cert.KernelIdeal Cert.KernelIdeal.Gen Idealize.ShloMosaic Idealize.ShloMosaic.TcCoe Idealize.SL.Sem

variable {F : FTy → Type} [FloatOps F] (m : (ℓ : Loc nD τ sig) → Buf (Elt F) ℓ)

/-- The first reshaped buffer, as the region finds it: the reshape of the first argument. -/
theorem V_main_v0 (c : Dev nD) : (V m c main_v0 : Vec F S16x4096x64 .f32) = shapeCast S16x4096x64 (m ((c : Thread nD τ).loc main_arg0)) shapeCasts_S2x8x4096x64_S16x4096x64 := by
  show StableHlo.after hostOps0 (fun b => m (c, b)) (Proc.devRef .tc main_v0) = _
  after_results
  rfl

/-- The second reshaped buffer: the reshape of the second argument. -/
theorem V_main_v1 (c : Dev nD) : (V m c main_v1 : Vec F S16x4096x64 .f32) = shapeCast S16x4096x64 (m ((c : Thread nD τ).loc main_arg1)) shapeCasts_S2x8x4096x64_S16x4096x64 := by
  show StableHlo.after hostOps0 (fun b => m (c, b)) (Proc.devRef .tc main_v1) = _
  after_results
  rfl

/-- The third reshaped buffer: the reshape of the third argument. -/
theorem V_main_v2 (c : Dev nD) : (V m c main_v2 : Vec F S16x4096x64 .f32) = shapeCast S16x4096x64 (m ((c : Thread nD τ).loc main_arg2)) shapeCasts_S2x8x4096x64_S16x4096x64 := by
  show StableHlo.after hostOps0 (fun b => m (c, b)) (Proc.devRef .tc main_v2) = _
  after_results
  rfl

/-- The program's result: the reshape of the region's output array as the region leaves it. The array enters the
    last step only as a variable: nothing is asked of its contents. -/
theorem tail_main_v4 (c : Dev nD) : Pipeline.afterTail₀ cfgs (dats m) 0 (V0 m) [hostOps1] c main_v4 = shapeCast S2x8x4096x64 ((dats m 0 c).arrAt 3 cfg0.N) shapeCasts_S16x4096x64_S2x8x4096x64 := by
  unfold Pipeline.afterTail₀
  show StableHlo.after hostOps1 _ (Proc.devRef .tc main_v4) = _
  after_results
  have e : Pipeline.withArrays (cfgs 0).spec c (V0 m c) (fun w => (dats m 0 c).arrAt w (cfgs 0).N)
        (Proc.devRef .tc main_v3) = (dats m 0 c).arrAt 3 cfg0.N :=
    Pipeline.withArrays_arr spec0 launch0.win.arr_inj c (V0 m c) (fun w => (dats m 0 c).arrAt w (cfgs 0).N) 3
  rw [e]
  generalize (dats m 0 c).arrAt 3 cfg0.N = A
  rfl

end Cert.KernelIdeal.Flash

end
-- ==== Proof.Heads.lean ====
/-
  The batch and head axes merged and split: a `[2, 8, 4096, 64]` array read as `[16, 4096, 64]` and back.

  A change of shape keeps the row-major position. Position `((b · 8 + hd) · 4096 + t) · 64 + c` of the four-axis
  shape is position `(g · 4096 + t) · 64 + c` of the three-axis one exactly when `g = 8 b + hd`, that is
  `b = g / 8` and `hd = g % 8`.
-/
import Idealize.ShloMosaic.Lib.ValueIdx
import Idealize.ShloMosaic.Lib.ValueLayout
import Idealize.ShloMosaic.Lib.Pipeline.Value

namespace Cert.Attn

open Idealize.ShloMosaic Idealize.ShloMosaic.ValueIdx

/-- `[2, 8, 4096, 64]` read as `[16, 4096, 64]`: merged head `g` is batch `g / 8`, head `g % 8`. -/
theorem mergeHeads_apply {α : Type} (x : (⟨4, ![2, 8, 4096, 64]⟩ : Shape).Idx → α)
    (h : (⟨4, ![2, 8, 4096, 64]⟩ : Shape).ShapeCasts ⟨3, ![16, 4096, 64]⟩) (g : Fin 16) (t : Fin 4096) (c : Fin 64) :
    shapeCast ⟨3, ![16, 4096, 64]⟩ x h (ix3 g t c)
      = x (ix4 (⟨g.val / 8, by omega⟩ : Fin 2) (⟨g.val % 8, by omega⟩ : Fin 8) t c) :=
  shapeCast_apply x h _ _ (by
    rw [Shape.rowMajor_val_four, Shape.rowMajor_val_three]
    show ((g.val / 8 * 8 + g.val % 8) * 4096 + t.val) * 64 + c.val = (g.val * 4096 + t.val) * 64 + c.val
    rw [Nat.mul_comm (g.val / 8) 8, Nat.div_add_mod])

/-- `[16, 4096, 64]` read as `[2, 8, 4096, 64]`: batch `b`, head `hd` is merged head `8 b + hd`. -/
theorem splitHeads_apply {α : Type} (y : (⟨3, ![16, 4096, 64]⟩ : Shape).Idx → α)
    (h : (⟨3, ![16, 4096, 64]⟩ : Shape).ShapeCasts ⟨4, ![2, 8, 4096, 64]⟩) (b : Fin 2) (hd : Fin 8) (t : Fin 4096) (c : Fin 64) :
    shapeCast ⟨4, ![2, 8, 4096, 64]⟩ y h (ix4 b hd t c)
      = y (ix3 (⟨b.val * 8 + hd.val, by omega⟩ : Fin 16) t c) :=
  shapeCast_apply y h _ _ (by
    rw [Shape.rowMajor_val_three, Shape.rowMajor_val_four]
    show ((b.val * 8 + hd.val) * 4096 + t.val) * 64 + c.val = ((b.val * 8 + hd.val) * 4096 + t.val) * 64 + c.val
    rfl)

end Cert.Attn
-- ==== Proof.KernelValue.lean ====
/-
  The idealized kernel program's result array, as a function of its three argument arrays.

  The program reshapes query, key and value from `[2, 8, 4096, 64]` to `[16, 4096, 64]` (batch and head merged), runs the
  kernel over the grid, and reshapes the result back. The kernel's array ends, tile by tile, at the blockwise attention
  of the merged-head arrays; merged head `8 b + h` of a reshaped array is head `(b, h)` of the original, and entry
  `(b, h, t, c)` of the result reshaped back is entry `(8 b + h, t, c)` of the kernel's array: so the program's result
  is `Cert.Attn.Gonline` of its arguments. No finiteness is used here.
-/
import proofs.«411975_j12481174962515_3_alg».proof.Proof.OutArray
import proofs.«411975_j12481174962515_3_alg».proof.Proof.HostSide
import proofs.«411975_j12481174962515_3_alg».proof.Proof.Heads

set_option maxRecDepth 16384

noncomputable section

open Idealize.ShloMosaic Idealize.ShloMosaic.TcCoe Idealize.SL.Sem
open Idealize.ShloMosaic.Pipeline (Dat)

namespace Cert.KernelIdeal.Flash

open Cert.KernelIdeal Cert.KernelIdeal.Gen Idealize.ShloMosaic.ValueIdx

variable (m : (ℓ : Loc nD τ sig) → Buf (Elt Ideal) ℓ) (ρ : Dev nD → PrngReg)

/-- Blockwise attention of the merged-head arrays, split back into batch and head, is blockwise attention of the
    original arrays: merged head `8 b + h` is head `(b, h)`. -/
theorem result3_split (q k v : Vec Ideal S2x8x4096x64 .f32) :
    shapeCast S2x8x4096x64 (result3 (shapeCast S16x4096x64 q shapeCasts_S2x8x4096x64_S16x4096x64) (shapeCast S16x4096x64 k shapeCasts_S2x8x4096x64_S16x4096x64)
        (shapeCast S16x4096x64 v shapeCasts_S2x8x4096x64_S16x4096x64)) shapeCasts_S16x4096x64_S2x8x4096x64
      = Attn.Gonline q k v := by
  funext i
  obtain ⟨b, hd, t, cc, rfl⟩ : ∃ (b : Fin 2) (hd : Fin 8) (t : Fin 4096) (cc : Fin 64), i = ix4 b hd t cc :=
    ⟨i 0, i 1, i 2, i 3, eq_ix4 i⟩
  rw [Attn.splitHeads_apply, result3_apply]
  have hb : (⟨(b.val * 8 + hd.val) / 8, by omega⟩ : Fin 2) = b := Fin.ext (by show (b.val * 8 + hd.val) / 8 = b.val; omega)
  have hh : (⟨(b.val * 8 + hd.val) % 8, by omega⟩ : Fin 8) = hd := Fin.ext (by show (b.val * 8 + hd.val) % 8 = hd.val; omega)
  have e : ∀ (x : Vec Ideal S2x8x4096x64 .f32) (s : Fin 4096) (c' : Fin 64),
      shapeCast S16x4096x64 x shapeCasts_S2x8x4096x64_S16x4096x64 (ix3 (⟨b.val * 8 + hd.val, by omega⟩ : Fin 16) s c') = x (ix4 b hd s c') := by
    intro x s c'
    rw [Attn.mergeHeads_apply, hb, hh]
  show Attn.online _ _ _ cc = Attn.online (Attn.rowOf q b hd t) (Attn.headOf k b hd) (Attn.headOf v b hd) cc
  have e1 : rowOf3 (shapeCast S16x4096x64 q shapeCasts_S2x8x4096x64_S16x4096x64) (⟨b.val * 8 + hd.val, by omega⟩ : Fin 16) t = Attn.rowOf q b hd t :=
    funext fun c' => e q t c'
  have e2 : headOf3 (shapeCast S16x4096x64 k shapeCasts_S2x8x4096x64_S16x4096x64) (⟨b.val * 8 + hd.val, by omega⟩ : Fin 16) = Attn.headOf k b hd :=
    funext fun s => funext fun c' => e k s c'
  have e3 : headOf3 (shapeCast S16x4096x64 v shapeCasts_S2x8x4096x64_S16x4096x64) (⟨b.val * 8 + hd.val, by omega⟩ : Fin 16) = Attn.headOf v b hd :=
    funext fun s => funext fun c' => e v s c'
  rw [e1, e2, e3]

/-- The program's result buffer after the run, as the frame run states it, is blockwise attention of the arguments. -/
theorem result_eq (c : Dev nD) :
    Pipeline.afterTail₀ cfgs (dats m) 0 (V0 m) [hostOps1] c main_v4
      = Attn.Gonline (m ((c : Thread nD τ).loc main_arg0)) (m ((c : Thread nD τ).loc main_arg1)) (m ((c : Thread nD τ).loc main_arg2)) := by
  rw [tail_main_v4 m c, final3 m c]
  show shapeCast S2x8x4096x64 (result3 (V m c main_v0) (V m c main_v1) (V m c main_v2)) shapeCasts_S16x4096x64_S2x8x4096x64 = _
  rw [V_main_v0 m c, V_main_v1 m c, V_main_v2 m c]
  exact result3_split _ _ _

/-- THE RUN, READ: every weakly fair execution of the idealized kernel program terminates with its result array at the
    blockwise attention of its argument arrays, and the arguments unchanged. -/
theorem run : θ_run defs (onTc (τ := τ) (main (F := Ideal))) ⟨m, fun _ => 0, ρ⟩ (fun r => ∀ c : Dev nD,
      r.2.mem ((c.tc : Thread nD τ).loc main_v4)
          = Attn.Gonline (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Flash

end
-- ==== Proof.RefValue.lean ====
/-
  The reference program, read at an index, is softmax attention as the specification writes it.

  The reference computes, over whole arrays of shape [2, 8, 4096, 64] (batch, head, position, channel):
  the scores q·kᵀ (a contraction over the 64 channels) times the scalar 1/√64; their maximum along the key axis,
  taken from −∞ and once more against −∞; exp (score − maximum); the sum of these along the key axis from 0;
  each weight divided by that sum; and the contraction of the normalised weights with the values over the 4096 keys.
  Read at the index (b, h, t, c) each of these stages is the corresponding stage of `Cert.Attn.direct` on row t of
  head (b, h): the same constants as the same bit patterns, the same operations in the same order. So nothing is
  evaluated and no algebra is done: every step identifies an index built by a layout operation with the index written
  from its coordinates.
-/
import proofs.«411975_j12481174962515_3_alg».proof.Proof.Spec
import proofs.«411975_j12481174962515_3_alg».proof.Proof.Gen.ReferenceIdeal.Read
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Idealize.ShloMosaic Idealize.ShloMosaic.ValueIdx

/-- An argument array: batch, head, position, channel. -/
abbrev Arg : Type := (⟨S2x8x4096x64, .f32⟩ : BufTy).Contents (Elt Ideal)

/-! ## The scale -/

/-- The scalar the scores are multiplied by is `1 / √64`, written with the reference's own two constants. -/
theorem scale_eq (j : S_.Idx) : Read.val_main_v1 (F := Ideal) j = Cert.Attn.scale := by
  rw [Read.val_main_v1_apply, Read.val_main_cst_0_apply, Read.val_main_v0_apply, Read.val_main_cst_apply]
  simp only [Ideal.hostDivf_def, Ideal.hostUnary_sqrt_def, Ideal.ofBits_def]
  rfl

/-! ## The scores -/

/-- The score array at (b, h, t, s): the inner product of query row t with key s over the 64 channels, scaled. -/
theorem score_eq (x0 x1 : Arg) (b : Fin 2) (h : Fin 8) (t s : Fin 4096) :
    Read.val_main_v4 (F := Ideal) x0 x1 (ix4 b h t s)
      = Cert.Attn.score (Cert.Attn.rowOf x0 b h t) (Cert.Attn.headOf x1 b h) s := by
  have el : ∀ k : Fin 64, Read.lidx_main_v2 (ix4 b h t s) k = ix4 b h t k := fun k =>
    funext fun a => Fin.ext (by match a with | ⟨0, _⟩ => rfl | ⟨1, _⟩ => rfl | ⟨2, _⟩ => rfl | ⟨3, _⟩ => rfl)
  have er : ∀ k : Fin 64, Read.ridx_main_v2 (ix4 b h t s) k = ix4 b h s k := fun k =>
    funext fun a => Fin.ext (by match a with | ⟨0, _⟩ => rfl | ⟨1, _⟩ => rfl | ⟨2, _⟩ => rfl | ⟨3, _⟩ => rfl)
  rw [Read.val_main_v4_apply, Read.val_main_v2_apply, Read.val_main_v3_apply, scale_eq]
  simp only [Ideal.mulf_def, el, er]
  rfl

/-! ## The row maximum -/

/-- A maximum along the last axis of a [2, 8, 4096, 4096] array, read at (b, h, t): the fold of `max` over the 4096
    coordinates of that axis, from the initial value. The source index over (b, h, t) with coordinate s inserted on
    the reduced axis is (b, h, t, s). -/
theorem rowFold (y : S2x8x4096x4096.Idx → Idealize.ShloMosaic.Ideal .f32) (init : S_.Idx → Idealize.ShloMosaic.Ideal .f32)
    (b : Fin 2) (h : Fin 8) (t : Fin 4096) :
    Host.reduce FloatOps.maximumf y init Gen.reducesTo_S2x8x4096x4096_S2x8x4096_d3 Gen.h_S_ (ix3 b h t)
      = (Finset.univ : Finset (Fin 4096)).fold max (init (Shape.Idx.first Gen.h_S_)) (fun s => y (ix4 b h t s)) := by
  have hR : S2x8x4096x4096.Reduces [3] S2x8x4096 := by decide
  have hl : ∀ s : Fin 4096, hR.lift (ix3 b h t) s = ix4 b h t s := fun s =>
    funext fun a => Fin.ext (by match a with | ⟨0, _⟩ => rfl | ⟨1, _⟩ => rfl | ⟨2, _⟩ => rfl | ⟨3, _⟩ => rfl)
  refine (Host.reduce_eq_fold_single (FloatOps.maximumf (F := Idealize.ShloMosaic.Ideal) (φ := .f32)) y init
    Gen.reducesTo_S2x8x4096x4096_S2x8x4096_d3 hR Gen.h_S_ (ix3 b h t)).trans ?_
  show (Finset.univ : Finset (Fin 4096)).fold max _ (fun s => y (hR.lift (ix3 b h t) s)) = _
  exact Finset.fold_congr fun s _ => congrArg y (hl s)

/-- The maximum of row (b, h, t) over the 4096 keys, taken from −∞ and then once more against −∞. -/
theorem rowMax_eq (x0 x1 : Arg) (b : Fin 2) (h : Fin 8) (t : Fin 4096) :
    Read.val_main_v7 (F := Ideal) x0 x1 (ix3 b h t)
      = Cert.Attn.rowMax (Cert.Attn.rowOf x0 b h t) (Cert.Attn.headOf x1 b h) := by
  rw [Read.val_main_v7_apply, Read.val_main_v6_apply, Read.val_main_cst_2_apply]
  unfold Read.val_main_v5
  rw [rowFold, Read.val_main_cst_1_apply]
  simp only [score_eq, Ideal.maximumf_def, Ideal.ofBits_def]
  rfl

/-! ## The weights and their sum -/

/-- The unnormalised weight at (b, h, t, s): exp of the score minus the row's maximum. -/
theorem weight_eq (x0 x1 : Arg) (b : Fin 2) (h : Fin 8) (t s : Fin 4096) :
    Read.val_main_v11 (F := Ideal) x0 x1 (ix4 b h t s)
      = Cert.Attn.weight (Cert.Attn.rowOf x0 b h t) (Cert.Attn.headOf x1 b h) s := by
  have e : Read.idx_main_v8 (Read.idx_main_v9 (ix4 b h t s)) = ix3 b h t :=
    funext fun a => Fin.ext (by match a with | ⟨0, _⟩ => rfl | ⟨1, _⟩ => rfl | ⟨2, _⟩ => rfl)
  rw [Read.val_main_v11_apply, Read.val_main_v10_apply, score_eq, Read.val_main_v9_apply, Read.val_main_v8_apply,
    e, rowMax_eq]
  simp only [Ideal.hostUnary_exp_def, Ideal.subf_def]
  rfl

/-- The normaliser of row (b, h, t): zero plus the sum of the row's weights. -/
theorem denom_eq (x0 x1 : Arg) (b : Fin 2) (h : Fin 8) (t : Fin 4096) :
    Read.val_main_v12 (F := Ideal) x0 x1 (ix3 b h t)
      = Cert.Attn.denom (Cert.Attn.rowOf x0 b h t) (Cert.Attn.headOf x1 b h) := by
  have e : ∀ s : Fin 4096, Read.idx_main_v12 (ix3 b h t) s = ix4 b h t s := fun s =>
    funext fun a => Fin.ext (by match a with | ⟨0, _⟩ => rfl | ⟨1, _⟩ => rfl | ⟨2, _⟩ => rfl | ⟨3, _⟩ => rfl)
  rw [Read.val_main_v12_apply, Read.val_main_cst_3_apply]
  simp only [e, weight_eq, Ideal.ofBits_def]
  rfl

/-! ## The result -/

/-- The reference's result at (b, h, t, c) is softmax attention of row t of head (b, h), column c. -/
theorem result_eq (x0 x1 x2 : Arg) (b : Fin 2) (h : Fin 8) (t : Fin 4096) (c : Fin 64) :
    Read.val_main_v16 (F := Ideal) x0 x1 x2 (ix4 b h t c)
      = Cert.Attn.direct (Cert.Attn.rowOf x0 b h t) (Cert.Attn.headOf x1 b h) (Cert.Attn.headOf x2 b h) c := by
  have el : ∀ s : Fin 4096, Read.lidx_main_v16 (ix4 b h t c) s = ix4 b h t s := fun s =>
    funext fun a => Fin.ext (by match a with | ⟨0, _⟩ => rfl | ⟨1, _⟩ => rfl | ⟨2, _⟩ => rfl | ⟨3, _⟩ => rfl)
  have er : ∀ s : Fin 4096, Read.ridx_main_v16 (ix4 b h t c) s = ix4 b h s c := fun s =>
    funext fun a => Fin.ext (by match a with | ⟨0, _⟩ => rfl | ⟨1, _⟩ => rfl | ⟨2, _⟩ => rfl | ⟨3, _⟩ => rfl)
  have ed : ∀ s : Fin 4096, Read.idx_main_v13 (Read.idx_main_v14 (ix4 b h t s)) = ix3 b h t := fun s =>
    funext fun a => Fin.ext (by match a with | ⟨0, _⟩ => rfl | ⟨1, _⟩ => rfl | ⟨2, _⟩ => rfl)
  rw [Read.val_main_v16_apply]
  unfold Cert.Attn.direct
  refine Finset.sum_congr rfl fun s _ => ?_
  rw [el, er, Read.val_main_v15_apply, weight_eq, Read.val_main_v14_apply, Read.val_main_v13_apply, ed, denom_eq]
  simp only [Ideal.hostDivf_def]
  rfl

/-- The reference program computes softmax attention, written directly: at every index, with no hypothesis on the
    inputs. -/
theorem val_eq_G (x0 x1 x2 : (⟨S2x8x4096x64, .f32⟩ : BufTy).Contents (Elt Ideal)) :
    Cert.ReferenceIdeal.Read.val_main_v16 (F := Ideal) x0 x1 x2 = Cert.Attn.G x0 x1 x2 := by
  funext i
  obtain ⟨b, h, t, c, rfl⟩ : ∃ (b : Fin 2) (h : Fin 8) (t : Fin 4096) (c : Fin 64), i = ix4 b h t c :=
    ⟨i 0, i 1, i 2, i 3, eq_ix4 i⟩
  exact result_eq x0 x1 x2 b h t c

end Cert.ReferenceIdeal.RefValue

end
-- ==== Proof.OnlineSoftmax.lean ====
/-
  The blockwise (online) form of one softmax-attention row equals the direct form, on finite inputs.

  Every quantity of both forms is the coercion of a real number once the inputs are: the scores are finite sums of
  products, a maximum from `−∞` over a nonempty finite family of reals is a real, and `exp` of a real is a real.
  With `S s` the real score of key `s`, the running state after `j ≥ 1` blocks is, for some real `M`,

      ( M ,  e^{−M} · ∑_{keys of the first j blocks} e^{S s} ,  e^{−M} · ∑_{those keys} e^{S s} · v s c ).

  Which real `M` is plays no part: a block's step multiplies the old sums by `e^{M − M'}` and
  `e^{M − M'} · e^{−M} = e^{−M'}`, while the block's own terms are `e^{S s − M'} = e^{−M'} · e^{S s}`. The first
  step starts from `(−∞, 0, 0)`, where `exp (−∞ − M') = 0` removes the old sums. After the four blocks the keys are
  all 4096, and numerator over denominator is `(∑ e^{S s} v s c) / (∑ e^{S s})`: the factor `e^{−M}` cancels. The
  direct form has the same value: there the factor is `e^{−R}` with `R` the row's maximum, and it cancels the same
  way. The two scalings agree because `1/√64 = 1/8` and a factor moves across a finite sum.
-/
import proofs.«411975_j12481174962515_3_alg».proof.Proof.Spec
import Idealize.ShloMosaic.PureOps.Ideal
import Idealize.ShloMosaic.PureOps.Ideal.Laws
import Mathlib.Data.Finset.Fold
import Mathlib.Data.EReal.Operations
import Mathlib.Analysis.Complex.Exponential
import Mathlib.Analysis.SpecialFunctions.Sqrt
import Mathlib.Data.Fintype.BigOperators
import Mathlib.Logic.Equiv.Fin.Basic
import Mathlib.Algebra.BigOperators.Fin
import Mathlib.Algebra.Order.BigOperators.Ring.Finset
import Mathlib.Tactic.FieldSimp
import Mathlib.Tactic.Ring
import Mathlib.Tactic.NormNum

noncomputable section

namespace Cert.Attn

open Idealize.ShloMosaic

/-! ## The constants -/

theorem ofBits_negInf : Ideal.ofBits .f32 0xFF800000#32 = (⊥ : EReal) := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_sixtyfour : Ideal.ofBits .f32 0x42800000#32 = ((64 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem negInf_eq : negInf = ⊥ := ofBits_negInf
theorem zero_eq : zero = 0 := Ideal.ofBits_zero_f32
theorem eighth_eq : eighth = ((1 / 8 : ℝ) : EReal) := ofBits_eighth

/-- `1 / √64 = 1/8`: `64 = 8²`. -/
theorem scale_eq : scale = ((1 / 8 : ℝ) : EReal) := by
  have h8 : Real.sqrt 64 = 8 := by
    rw [show (64 : ℝ) = 8 ^ 2 by norm_num]
    exact Real.sqrt_sq (by norm_num)
  rw [scale, ofBits_one, ofBits_sixtyfour, Ideal.sqrt_coe, if_neg (by norm_num), h8,
    Ideal.div_coe (by norm_num), ← EReal.coe_mul, one_mul]

/-! ## Finite sums and maxima of coerced reals -/

/-- The coercion of a finite sum of reals is the sum of the coercions. -/
theorem coe_sum {ι : Type} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- A maximum from `−∞` over a nonempty finite family of reals is a real. -/
theorem fold_max_coe {ι : Type} (s : Finset ι) (hs : s.Nonempty) (f : ι → ℝ) :
    ∃ r : ℝ, s.fold max (⊥ : EReal) (fun i => (f i : EReal)) = (r : EReal) := by
  induction hs using Finset.Nonempty.cons_induction with
  | singleton a => exact ⟨f a, by rw [Finset.fold_singleton]; exact max_eq_left bot_le⟩
  | cons a s ha hs ih =>
    obtain ⟨r, hr⟩ := ih
    exact ⟨max (f a) r, by
      rw [Finset.fold_cons, hr]; exact (EReal.coe_strictMono.monotone.map_max).symm⟩

/-! ## Two identities of the real exponential -/

theorem exp_sub_eq (s M : ℝ) : Real.exp (s - M) = Real.exp (-M) * Real.exp s := by
  rw [← Real.exp_add]; congr 1; ring

theorem exp_rescale (M M' : ℝ) : Real.exp (M - M') * Real.exp (-M) = Real.exp (-M') := by
  rw [← Real.exp_add]; congr 1; ring

/-! ## The scores -/

/-- The score of key `s` as a real number. -/
def sc (qr : Fin 64 → ℝ) (kr : Fin 4096 → Fin 64 → ℝ) (s : Fin 4096) : ℝ :=
  (∑ c : Fin 64, qr c * kr s c) * (1 / 8)

theorem score_coe (qr : Fin 64 → ℝ) (kr : Fin 4096 → Fin 64 → ℝ) (s : Fin 4096) :
    score (fun c => (qr c : EReal)) (fun s c => (kr s c : EReal)) s = (sc qr kr s : EReal) := by
  simp only [score, scale_eq, sc, EReal.coe_mul, coe_sum]

/-- The blockwise form's score of key `x` of block `j` is the same real: the factor `1/8` moves across the sum. -/
theorem bscore_coe (qr : Fin 64 → ℝ) (kr : Fin 4096 → Fin 64 → ℝ) (j : ℕ) (x : Fin 1024) :
    bscore (scaled (fun c => (qr c : EReal))) (blk (fun s c => (kr s c : EReal)) j) x
      = (sc qr kr (keyIx j x) : EReal) := by
  have h : sc qr kr (keyIx j x) = ∑ c : Fin 64, qr c * (1 / 8) * kr (keyIx j x) c := by
    rw [sc, Finset.sum_mul]
    exact Finset.sum_congr rfl fun c _ => mul_right_comm _ _ _
  rw [h]
  simp only [bscore, scaled, blk, eighth_eq, coe_sum, EReal.coe_mul]

/-! ## One block -/

/-- One block from a finite state. -/
theorem step_coe (qs : Fin 64 → EReal) (K V : Fin 1024 → Fin 64 → EReal)
    (sb : Fin 1024 → ℝ) (vb : Fin 1024 → Fin 64 → ℝ)
    (hs : ∀ x, bscore qs K x = (sb x : EReal)) (hv : ∀ x c, V x c = (vb x c : EReal))
    (M l : ℝ) (a : Fin 64 → ℝ) :
    ∃ M' : ℝ, step qs K V ((M : EReal), (l : EReal), fun c => (a c : EReal)) =
      ((M' : EReal), ((Real.exp (M - M') * l + ∑ x, Real.exp (sb x - M') : ℝ) : EReal),
        fun c => ((Real.exp (M - M') * a c + ∑ x, Real.exp (sb x - M') * vb x c : ℝ) : EReal)) := by
  obtain ⟨B, hB⟩ := fold_max_coe Finset.univ Finset.univ_nonempty sb
  have hfun : bscore qs K = fun x => (sb x : EReal) := funext hs
  have hm : newMax qs K (M : EReal) = ((max M B : ℝ) : EReal) := by
    rw [newMax, hfun, negInf_eq, hB]; exact (EReal.coe_strictMono.monotone.map_max).symm
  refine ⟨max M B, ?_⟩
  simp only [step, hm, hs, hv, ← EReal.coe_sub, Ideal.exp_coe, ← EReal.coe_mul, ← coe_sum,
    ← EReal.coe_add]

/-- The first block, from `(−∞, 0, 0)`: `exp (−∞ − M') = 0` removes the old sums. -/
theorem step_start (qs : Fin 64 → EReal) (K V : Fin 1024 → Fin 64 → EReal)
    (sb : Fin 1024 → ℝ) (vb : Fin 1024 → Fin 64 → ℝ)
    (hs : ∀ x, bscore qs K x = (sb x : EReal)) (hv : ∀ x c, V x c = (vb x c : EReal)) :
    ∃ M' : ℝ, step qs K V start =
      ((M' : EReal), ((∑ x, Real.exp (sb x - M') : ℝ) : EReal),
        fun c => ((∑ x, Real.exp (sb x - M') * vb x c : ℝ) : EReal)) := by
  obtain ⟨B, hB⟩ := fold_max_coe Finset.univ Finset.univ_nonempty sb
  have hfun : bscore qs K = fun x => (sb x : EReal) := funext hs
  have hm : newMax qs K (⊥ : EReal) = (B : EReal) := by
    rw [newMax, hfun, negInf_eq, hB]; exact max_eq_right bot_le
  refine ⟨B, ?_⟩
  simp only [step, start, negInf_eq, zero_eq, hm, hs, hv, EReal.bot_sub, Ideal.exp_bot, zero_mul,
    zero_add, ← EReal.coe_sub, Ideal.exp_coe, ← EReal.coe_mul, ← coe_sum]

/-! ## The state after `j ≥ 1` blocks -/

theorem sum_exp_sub (sb : Fin 1024 → ℝ) (M' : ℝ) :
    ∑ x, Real.exp (sb x - M') = Real.exp (-M') * ∑ x, Real.exp (sb x) := by
  rw [Finset.mul_sum]; exact Finset.sum_congr rfl fun x _ => exp_sub_eq _ _

theorem sum_exp_sub_mul (sb w : Fin 1024 → ℝ) (M' : ℝ) :
    ∑ x, Real.exp (sb x - M') * w x = Real.exp (-M') * ∑ x, Real.exp (sb x) * w x := by
  rw [Finset.mul_sum]; exact Finset.sum_congr rfl fun x _ => by rw [exp_sub_eq, mul_assoc]

/-- Rescaling the old sums to the new maximum and adding the block's terms. -/
theorem rescale_add (M M' X T : ℝ) :
    Real.exp (M - M') * (Real.exp (-M) * X) + Real.exp (-M') * T = Real.exp (-M') * (X + T) := by
  rw [← mul_assoc, exp_rescale, mul_add]

/-- After `j + 1` blocks the state is `(M, e^{−M} ∑ e^{S s}, e^{−M} ∑ e^{S s} v s c)` over the keys of those blocks,
    for some real `M`. -/
theorem stateAfter_coe (qr : Fin 64 → ℝ) (kr vr : Fin 4096 → Fin 64 → ℝ) (j : ℕ) :
    ∃ M : ℝ, stateAfter (fun c => (qr c : EReal)) (fun s c => (kr s c : EReal))
        (fun s c => (vr s c : EReal)) (j + 1) =
      ((M : EReal),
       ((Real.exp (-M) * ∑ i ∈ Finset.range (j + 1), ∑ x : Fin 1024,
          Real.exp (sc qr kr (keyIx i x)) : ℝ) : EReal),
       fun c => ((Real.exp (-M) * ∑ i ∈ Finset.range (j + 1), ∑ x : Fin 1024,
          Real.exp (sc qr kr (keyIx i x)) * vr (keyIx i x) c : ℝ) : EReal)) := by
  induction j with
  | zero =>
    obtain ⟨M, hM⟩ := step_start (scaled fun c => (qr c : EReal)) (blk (fun s c => (kr s c : EReal)) 0)
      (blk (fun s c => (vr s c : EReal)) 0) (fun x => sc qr kr (keyIx 0 x)) (fun x c => vr (keyIx 0 x) c)
      (bscore_coe qr kr 0) (fun _ _ => rfl)
    refine ⟨M, ?_⟩
    show step _ _ _ start = _
    rw [hM]
    simp only [sum_exp_sub, sum_exp_sub_mul, zero_add, Finset.sum_range_one]
  | succ j ih =>
    obtain ⟨M, hM⟩ := ih
    obtain ⟨M', hM'⟩ := step_coe (scaled fun c => (qr c : EReal)) (blk (fun s c => (kr s c : EReal)) (j + 1))
      (blk (fun s c => (vr s c : EReal)) (j + 1)) (fun x => sc qr kr (keyIx (j + 1) x))
      (fun x c => vr (keyIx (j + 1) x) c) (bscore_coe qr kr (j + 1)) (fun _ _ => rfl) M
      (Real.exp (-M) * ∑ i ∈ Finset.range (j + 1), ∑ x : Fin 1024, Real.exp (sc qr kr (keyIx i x)))
      (fun c => Real.exp (-M) * ∑ i ∈ Finset.range (j + 1), ∑ x : Fin 1024,
          Real.exp (sc qr kr (keyIx i x)) * vr (keyIx i x) c)
    refine ⟨M', ?_⟩
    show step _ _ _ (stateAfter _ _ _ (j + 1)) = _
    rw [hM, hM']
    simp only [sum_exp_sub, sum_exp_sub_mul, rescale_add, Finset.sum_range_succ _ (j + 1)]

/-! ## The four blocks are the 4096 keys -/

theorem sum_blocks (f : Fin 4096 → ℝ) :
    ∑ i ∈ Finset.range 4, ∑ x : Fin 1024, f (keyIx i x) = ∑ s : Fin 4096, f s := by
  rw [Finset.sum_range (fun i => ∑ x : Fin 1024, f (keyIx i x)),
    ← Fintype.sum_prod_type' (fun (i : Fin 4) (x : Fin 1024) => f (keyIx i x))]
  refine Fintype.sum_equiv finProdFinEquiv _ _ fun p => ?_
  congr 1
  ext
  simp only [keyIx, finProdFinEquiv_apply_val]
  omega

/-! ## Both forms as one quotient of real sums -/

theorem sum_exp_pos (S : Fin 4096 → ℝ) : 0 < ∑ s : Fin 4096, Real.exp (S s) :=
  Finset.sum_pos (fun s _ => Real.exp_pos _) Finset.univ_nonempty

/-- The blockwise form: `(∑ e^{S s} v s c) / (∑ e^{S s})`. -/
theorem online_coe (qr : Fin 64 → ℝ) (kr vr : Fin 4096 → Fin 64 → ℝ) (c : Fin 64) :
    online (fun c => (qr c : EReal)) (fun s c => (kr s c : EReal)) (fun s c => (vr s c : EReal)) c =
      (((∑ s : Fin 4096, Real.exp (sc qr kr s) * vr s c) * (1 / ∑ s : Fin 4096, Real.exp (sc qr kr s)) : ℝ)
        : EReal) := by
  obtain ⟨M, hM⟩ := stateAfter_coe qr kr vr 3
  have hX := sum_exp_pos (sc qr kr)
  have hne : Real.exp (-M) * ∑ s : Fin 4096, Real.exp (sc qr kr s) ≠ 0 :=
    mul_ne_zero (Real.exp_ne_zero _) hX.ne'
  rw [online, show (4 : ℕ) = 3 + 1 from rfl, hM]
  simp only [sum_blocks (fun s => Real.exp (sc qr kr s)),
    sum_blocks (fun s => Real.exp (sc qr kr s) * vr s c)]
  rw [Ideal.div_coe hne, ← EReal.coe_mul]
  refine congrArg Real.toEReal ?_
  have he := Real.exp_ne_zero (-M)
  have hX' := hX.ne'
  field_simp

/-- The direct form: the same quotient. -/
theorem direct_coe (qr : Fin 64 → ℝ) (kr vr : Fin 4096 → Fin 64 → ℝ) (c : Fin 64) :
    direct (fun c => (qr c : EReal)) (fun s c => (kr s c : EReal)) (fun s c => (vr s c : EReal)) c =
      (((∑ s : Fin 4096, Real.exp (sc qr kr s) * vr s c) * (1 / ∑ s : Fin 4096, Real.exp (sc qr kr s)) : ℝ)
        : EReal) := by
  obtain ⟨R, hR⟩ := fold_max_coe Finset.univ Finset.univ_nonempty (sc qr kr)
  have hfun : score (fun c => (qr c : EReal)) (fun s c => (kr s c : EReal)) = fun s => (sc qr kr s : EReal) :=
    funext (score_coe qr kr)
  have hmax : rowMax (fun c => (qr c : EReal)) (fun s c => (kr s c : EReal)) = (R : EReal) := by
    rw [rowMax, hfun, negInf_eq, hR]; exact max_eq_right bot_le
  have hw : ∀ s, weight (fun c => (qr c : EReal)) (fun s c => (kr s c : EReal)) s
      = ((Real.exp (-R) * Real.exp (sc qr kr s) : ℝ) : EReal) := fun s => by
    rw [weight, hmax, score_coe, ← EReal.coe_sub, Ideal.exp_coe, exp_sub_eq]
  have hd : denom (fun c => (qr c : EReal)) (fun s c => (kr s c : EReal))
      = ((Real.exp (-R) * ∑ s : Fin 4096, Real.exp (sc qr kr s) : ℝ) : EReal) := by
    simp only [denom, zero_eq, zero_add, hw, ← coe_sum, ← Finset.mul_sum]
  have hX := sum_exp_pos (sc qr kr)
  have hne : Real.exp (-R) * ∑ s : Fin 4096, Real.exp (sc qr kr s) ≠ 0 :=
    mul_ne_zero (Real.exp_ne_zero _) hX.ne'
  simp only [direct, hw, hd, Ideal.div_coe hne, ← EReal.coe_mul, ← coe_sum]
  refine congrArg Real.toEReal ?_
  rw [Finset.sum_mul]
  refine Finset.sum_congr rfl fun s _ => ?_
  have he := Real.exp_ne_zero (-R)
  have hX' := hX.ne'
  field_simp

/-! ## The two theorems -/

theorem online_eq_direct (q : Fin 64 → EReal) (k v : Fin 4096 → Fin 64 → EReal)
    (hq : ∀ c, ∃ r : ℝ, q c = (r : EReal)) (hk : ∀ s c, ∃ r : ℝ, k s c = (r : EReal))
    (hv : ∀ s c, ∃ r : ℝ, v s c = (r : EReal)) (c : Fin 64) :
    online q k v c = direct q k v c := by
  choose qr hqr using hq
  choose kr hkr using hk
  choose vr hvr using hv
  obtain rfl : q = fun c => (qr c : EReal) := funext hqr
  obtain rfl : k = fun s c => (kr s c : EReal) := funext fun s => funext (hkr s)
  obtain rfl : v = fun s c => (vr s c : EReal) := funext fun s => funext (hvr s)
  rw [online_coe, direct_coe]

theorem Gonline_eq_G (q k v : Arr) (hq : AllReal q) (hk : AllReal k) (hv : AllReal v) :
    Gonline q k v = G q k v := by
  funext i
  exact online_eq_direct _ _ _ (fun c => hq _) (fun s c => hk _) (fun s c => hv _) (i 3)

end Cert.Attn

end
-- ==== Proof.Finite.lean ====
/-
  From the printed precondition to "every input entry is a real number".

  The precondition asks, of each of the three input arrays, that |x| < +∞ hold at every entry: the comparison's
  one-bit results are joined by `and` over all four axes, from the bit 1, and the three joined bits are joined by
  `and` once more. If the result is the bit 1 then each of the three all-reductions is 1, so every comparison bit is 1.
  At the extended reals |x| is `max x (−x)` and the bound's pattern denotes `⊤`; `max x (−x) < ⊤` excludes
  `x = ⊤` and `x = ⊥`, and what is left of the extended reals is the reals.
-/
import proofs.«411975_j12481174962515_3_alg».proof.Proof.Spec
import proofs.«411975_j12481174962515_3_alg».proof.Pre_finite_inputs
import Idealize.ShloMosaic.Lib.ReduceAll
import Idealize.ShloMosaic.Lib.ValueIdx
import Idealize.ShloMosaic.PureOps.Ideal
import Idealize.ShloMosaic.PureOps.Ideal.Laws
import Mathlib.Data.EReal.Basic

noncomputable section

namespace Cert.Pre_finite_inputs.Finite

open Idealize.ShloMosaic

/-! ## One entry -/

/-- An extended real whose absolute value is below `⊤` is a real: `⊤` and `⊥` both have absolute value `⊤`. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The bound's pattern, exponent all ones and fraction zero, denotes `⊤`. -/
theorem ofBits_inf : Ideal.ofBits .f32 0x7F800000#32 = (⊤ : EReal) := by
  simp [Ideal.ofBits, Ideal.ieee]

/-- If the comparison |x| < +∞ gives the bit 1, then `x` is a real. -/
theorem real_of_bit (x : Idealize.ShloMosaic.Ideal .f32)
    (h : FloatOps.cmpf .olt (FloatOps.hostAbsf x) (FloatOps.ofBits (F := Idealize.ShloMosaic.Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf] at h'
  unfold Ideal.cmp at h'
  by_contra hn
  have hlt : ¬ (max (x : EReal) (-(x : EReal)) < ⊤) := fun hlt => hn (real_of_abs_lt_top x hlt)
  simp [hlt] at h'

/-! ## One input array -/

/-- The scalar shape has one index. -/
instance : Subsingleton S_.Idx := ⟨fun a b => funext fun d => d.elim0⟩

/-- If the all-reduction by `and` of the comparison |x| < +∞ over an input array is the bit 1, every entry of the
    array is a real. -/
theorem allReal_of_all [Facts] (x : FVec Idealize.ShloMosaic.Ideal S2x8x4096x64 .f32)
    (e : Host.reduce IntOp.andi
          (cmpf .olt (Host.absf x)
            (broadcastInDim S2x8x4096x64 ![] Facts.bcast_S_S2x8x4096x64 (constant (F := Idealize.ShloMosaic.Ideal) S_ .f32 0x7F800000#32)))
          (constantI S_ 1 1#1) Facts.reducesTo_S2x8x4096x64_S_d0_1_2_3 Facts.h_S_ ValueIdx.ix0 = 1#1) :
    Cert.Attn.AllReal x := by
  intro i
  exact real_of_bit (x i) (Host.reduce_andi_all _ _ _ _ _ e i)

/-! ## The precondition -/

/-- Under the printed precondition every entry of the three inputs is a real number. -/
theorem allReal_of_pre [Cert.Pre_finite_inputs.Facts]
    (x0 x1 x2 : FVec Ideal Cert.Pre_finite_inputs.S2x8x4096x64 .f32)
    (h : Cert.Pre_finite_inputs.fn (F := Ideal) x0 x1 x2 = (fun _ => 1#1)) :
    Cert.Attn.AllReal x0 ∧ Cert.Attn.AllReal x1 ∧ Cert.Attn.AllReal x2 := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨allReal_of_all x0 h0', allReal_of_all x1 h1, allReal_of_all x2 h2⟩

end Cert.Pre_finite_inputs.Finite

end
-- ==== Proof.lean ====
/-
  The certificate: a flash-attention kernel (a running maximum, denominator and numerator carried over four blocks of
  1024 keys, the query scaled by `1/8` beforehand, one division at the end) computes softmax attention
  `softmax (Q Kᵀ / √64) V` over the extended reals, on finite inputs.

  * Both kernel programs run and keep their arguments: the generated frames. The reference runs and keeps its arguments:
    its generated run with the result dropped.
  * The idealization rewrote nothing.
  * The idealized kernel's result array is the blockwise attention `Cert.Attn.Gonline` of its arguments
    (Proof/KernelValue.lean, over the invariant of Proof/Invariant.lean: after every grid point each row's carried state
    is the blockwise state of that row). The reference's result is the direct attention `Cert.Attn.G` of its arguments
    (Proof/RefValue.lean: every host operation read at an index). The precondition makes every input entry a real number
    (Proof/Finite.lean), and on real entries the two forms agree (Proof/OnlineSoftmax.lean): rescaling by
    `exp (old maximum − new maximum)` re-bases every earlier weight, `1/8 = 1/√64`, the factor moves across the finite
    sum, and one division of the numerator is the division of each weight.
-/
import proofs.«411975_j12481174962515_3_alg».proof.Defs
import proofs.«411975_j12481174962515_3_alg».proof.Proof.Gen.Kernel
import proofs.«411975_j12481174962515_3_alg».proof.Proof.Gen.Kernel.Skeleton
import proofs.«411975_j12481174962515_3_alg».proof.Proof.Gen.Kernel.Launch
import proofs.«411975_j12481174962515_3_alg».proof.Proof.Gen.Kernel.Points
import proofs.«411975_j12481174962515_3_alg».proof.Proof.Gen.Kernel.Frame
import proofs.«411975_j12481174962515_3_alg».proof.Proof.Gen.KernelIdeal
import proofs.«411975_j12481174962515_3_alg».proof.Proof.Gen.KernelIdeal.Skeleton
import proofs.«411975_j12481174962515_3_alg».proof.Proof.Gen.KernelIdeal.Launch
import proofs.«411975_j12481174962515_3_alg».proof.Proof.Gen.KernelIdeal.Points
import proofs.«411975_j12481174962515_3_alg».proof.Proof.Gen.KernelIdeal.Frame
import proofs.«411975_j12481174962515_3_alg».proof.Proof.Gen.ReferenceIdeal
import proofs.«411975_j12481174962515_3_alg».proof.Proof.Gen.Pre_finite_inputs
import proofs.«411975_j12481174962515_3_alg».proof.Proof.Gen.ReferenceIdeal.Run
import proofs.«411975_j12481174962515_3_alg».proof.Proof.Gen.ReferenceIdeal.Read
import proofs.«411975_j12481174962515_3_alg».proof.Proof.KernelValue
import proofs.«411975_j12481174962515_3_alg».proof.Proof.RefValue
import proofs.«411975_j12481174962515_3_alg».proof.Proof.OnlineSoftmax
import proofs.«411975_j12481174962515_3_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Blockwise attention of finite arrays (the kernel's result) is direct attention of the same arrays (the reference's). -/
theorem algebraic : Cert.algebraic_KernelIdeal_ReferenceIdeal := by
  intro m ρ m' ρ' hpre hagree
  refine ⟨fun c => Cert.Attn.Gonline (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Flash.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.val_eq_G, (hagree c).1, (hagree c).2.1, (hagree c).2.2]
  obtain ⟨hq, hk, hv⟩ := Cert.Pre_finite_inputs.Finite.allReal_of_pre _ _ _ (hpre c)
  exact (Cert.Attn.Gonline_eq_G _ _ _ hq hk hv).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
